-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S1000x512 : Shape := ⟨2, ![1000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S4096x512 .f32) (main_arg1 : IVec S4096 32) (main_arg2 : FVec F S1000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S1000x512 : Shape := ⟨2, ![1000, 512]⟩
abbrev S_ : Shape := ⟨0, ![]⟩
abbrev S4096x1 : Shape := ⟨2, ![4096, 1]⟩
abbrev S1x4096 : Shape := ⟨2, ![1, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 39
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1000x512, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S1x4096, .f32⟩
  | .hbm, ⟨20, _⟩ => ⟨S4096x1, .i32⟩
  | .hbm, ⟨21, _⟩ => ⟨S1x4096, .i32⟩
  | .hbm, ⟨22, _⟩ => ⟨S4096x512, .bf16⟩
  | .hbm, ⟨23, _⟩ => ⟨S4096x512, .bf16⟩
  | .hbm, ⟨24, _⟩ => ⟨S4096x1, .f32⟩
  | .hbm, ⟨25, _⟩ => ⟨S4096x1, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x512_S4096_d1 : S4096x512.ReducesTo [1] S4096
  h_S_ : 0 < S_.numel
  shapeCasts_S4096_S1x4096 : S4096.ShapeCasts S1x4096
  shapeCasts_S4096_S4096x1 : S4096.ShapeCasts S4096x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S4096x1_S4096 : S4096x1.ShapeCasts S4096
  reducesTo_S4096_S_d0 : S4096.ReducesTo [0] S_
  gather_S1000x512_S4096x1_S4096x512_1_0_n_n_0_1_1512_wf : GatherDims.WF S1000x512 S4096x1 S4096x512 [1] [0] [] [0] [] 1 ![1, 512]
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)

variable [Facts₀]

def gather_S1000x512_S4096x1_S4096x512_1_0_n_n_0_1_1512 : GatherDims S1000x512 S4096x1 S4096x512 where
  offsetDims := [1]
  collapsedSliceDims := [0]
  operandBatchingDims := []
  startIndicesBatchingDims := []
  startIndexMap := [0]
  indexVectorDim := 1
  sliceSizes := ![1, 512]
  wf := gather_S1000x512_S4096x1_S4096x512_1_0_n_n_0_1_1512_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v15) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S1000x512 : Shape := ⟨2, ![1000, 512]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1000x512, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S512x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_call3_cst : Ref sig .tc := ⟨.hbm, 55, rfl⟩
abbrev main_call3_v0 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x512_S4096_d1 : S4096x512.ReducesTo [1] S4096
  h_S_ : 0 < S_.numel
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  reducesTo_S4096_S_d0 : S4096.ReducesTo [0] S_
  gather_S1000x512_S4096x1_S4096x512_1_0_n_n_0_1_1512_wf : GatherDims.WF S1000x512 S4096x1 S4096x512 [1] [0] [] [0] [] 1 ![1, 512]
  dot_S4096x512_S512x4096_S4096x4096_1_0_0_1_n_n_wf : DotDims.WF S4096x512 S512x4096 S4096x4096 [1] [0] [0] [1] [] []

variable [Facts₀]

def gather_S1000x512_S4096x1_S4096x512_1_0_n_n_0_1_1512 : GatherDims S1000x512 S4096x1 S4096x512 where
  offsetDims := [1]
  collapsedSliceDims := [0]
  operandBatchingDims := []
  startIndicesBatchingDims := []
  startIndexMap := [0]
  indexVectorDim := 1
  sliceSizes := ![1, 512]
  wf := gather_S1000x512_S4096x1_S4096x512_1_0_n_n_0_1_1512_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Pieces.lean ====
/-
  What one run of the mining body leaves in its two running columns, as values.

  At a tile that is not the first of its row of tiles the body merges the tile's row maxima into the column
  it finds (the maxima), and the tile's row minima into the other column (the minima). At the first tile of
  a row of tiles it first overwrites both columns with the neutral elements, -inf and +inf, and then merges
  into those. Each column ends as ONE whole-block store, so what it holds is that store's value.
-/
import proofs.«123725_j72413148610843_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- A later tile: the maxima column becomes the merge of what it held with the tile's row maxima. -/
theorem later_max (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .f32) (h4 : a4.IsWhole) (a5 : Memref sig .tc .vmem S1x512 .f32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hc : ¬cond0_0 i)
    (x0 : Vec F S512x512 .bf16) (x1 : Vec F S512x512 .bf16) (x2 : Vec F S512x1 .f32) (x3 : Vec F S1x512 .f32) (x4 : Vec F S512x1 .i32) (x5 : Vec F S1x512 .i32) (xo6 xo7 : Vec F S512x1 .f32) :
    out0_B_6 c i a2 h2 a3 h3 a4 h4 a5 h5 a6 h6 a7 h7 a8 h8 a9 h9 hc x0 x1 x2 x3 x4 x5 xo6 xo7 = k0_pay1 (k0_pay8 xo6) (k0_pay9 x0 x1 x2 x3 x4 x5) := by
  unfold out0_B_6
  rw [View.read_writes_eq_canon _ _ _ (cover0_B_6 c i a2 h2 a3 h3 a4 h4 a5 h5 a6 h6 a7 h7 a8 h8 a9 h9 hc x0 x1 x2 x3 x4 x5 xo6 xo7)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S512x512) hz, View.ld_unit_zero (S := S512x1) hz, View.ld_unit_zero (S := S1x512) hz]

/-- A later tile: the minima column becomes the merge of what it held with the tile's row minima. -/
theorem later_min (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .f32) (h4 : a4.IsWhole) (a5 : Memref sig .tc .vmem S1x512 .f32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hc : ¬cond0_0 i)
    (x0 : Vec F S512x512 .bf16) (x1 : Vec F S512x512 .bf16) (x2 : Vec F S512x1 .f32) (x3 : Vec F S1x512 .f32) (x4 : Vec F S512x1 .i32) (x5 : Vec F S1x512 .i32) (xo6 xo7 : Vec F S512x1 .f32) :
    out0_B_7 c i a2 h2 a3 h3 a4 h4 a5 h5 a6 h6 a7 h7 a8 h8 a9 h9 hc x0 x1 x2 x3 x4 x5 xo6 xo7 = k0_pay2 (k0_pay7 x0 x1 x2 x3 x4 x5) xo7 := by
  unfold out0_B_7
  rw [View.read_writes_eq_canon _ _ _ (cover0_B_7 c i a2 h2 a3 h3 a4 h4 a5 h5 a6 h6 a7 h7 a8 h8 a9 h9 hc x0 x1 x2 x3 x4 x5 xo6 xo7)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S512x512) hz, View.ld_unit_zero (S := S512x1) hz, View.ld_unit_zero (S := S1x512) hz]

/-- The first tile of a row of tiles: the maxima column restarts from -inf. -/
theorem first_max (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .f32) (h4 : a4.IsWhole) (a5 : Memref sig .tc .vmem S1x512 .f32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hc : cond0_0 i)
    (x0 : Vec F S512x512 .bf16) (x1 : Vec F S512x512 .bf16) (x2 : Vec F S512x1 .f32) (x3 : Vec F S1x512 .f32) (x4 : Vec F S512x1 .i32) (x5 : Vec F S1x512 .i32) :
    out0_A_6 c i a2 h2 a3 h3 a4 h4 a5 h5 a6 h6 a7 h7 a8 h8 a9 h9 hc x0 x1 x2 x3 x4 x5 = k0_pay1 (k0_pay8 k0_pay3) (k0_pay9 x0 x1 x2 x3 x4 x5) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread, h8.read_unread, h9.read_unread, View.ld_unit_zero (S := S512x512) hz, View.ld_unit_zero (S := S512x1) hz, View.ld_unit_zero (S := S1x512) hz]

/-- The first tile of a row of tiles: the minima column restarts from +inf. -/
theorem first_min (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .f32) (h4 : a4.IsWhole) (a5 : Memref sig .tc .vmem S1x512 .f32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hc : cond0_0 i)
    (x0 : Vec F S512x512 .bf16) (x1 : Vec F S512x512 .bf16) (x2 : Vec F S512x1 .f32) (x3 : Vec F S1x512 .f32) (x4 : Vec F S512x1 .i32) (x5 : Vec F S1x512 .i32) :
    out0_A_7 c i a2 h2 a3 h3 a4 h4 a5 h5 a6 h6 a7 h7 a8 h8 a9 h9 hc x0 x1 x2 x3 x4 x5 = k0_pay2 (k0_pay7 x0 x1 x2 x3 x4 x5) k0_pay4 := by
  unfold out0_A_7
  rw [View.read_writes_eq_canon _ _ _ (cover0_A_7 c i a2 h2 a3 h3 a4 h4 a5 h5 a6 h6 a7 h7 a8 h8 a9 h9 hc x0 x1 x2 x3 x4 x5)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread, h8.read_unread, h9.read_unread, View.ld_unit_zero (S := S512x512) hz, View.ld_unit_zero (S := S512x1) hz, View.ld_unit_zero (S := S1x512) hz]

end Cert.KernelIdeal.Pieces

end
-- ==== Proof.Blocks.lean ====
/-
  Where the mining region's tiles lie in the arrays.

  The 64 grid points run row of tiles by row of tiles: point t works on tile row t / 8 and tile column t % 8.
  The embeddings, the row norms and the label column are read by tile ROW (rows 512 (t / 8) + r), the gathered
  centres, the centre norms and the label row by tile COLUMN (rows, resp. columns, 512 (t % 8) + q); both
  result columns are written by tile row.
-/
import proofs.«123725_j72413148610843_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- Row r of the tile row that point t works on, as a row of the whole batch. -/
def rowOf (t : Fin cfg0.N) (r : Fin 512) : Fin 4096 :=
  ⟨512 * (t.val / 8) + r.val, by have := lt64 t; have := r.isLt; omega⟩

/-- Column q of the tile column that point t works on, as a column of the whole batch. -/
def colOf (t : Fin cfg0.N) (q : Fin 512) : Fin 4096 :=
  ⟨512 * (t.val % 8) + q.val, by have := r_lt q; omega⟩
where r_lt (q : Fin 512) : q.val < 512 := q.isLt

/-- Every window's block index at every point: tile row t / 8 or tile column t % 8 on the tiled axis, 0 on
    the other (decided over the 64 points). -/
theorem index_facts : ∀ t : Fin cfg0.N,
    (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = 0 ∧ win0_3.index t 1 = t.val % 8)
    ∧ (win0_4.index t 0 = t.val / 8 ∧ win0_4.index t 1 = 0) ∧ (win0_5.index t 0 = 0 ∧ win0_5.index t 1 = t.val % 8)
    ∧ (win0_6.index t 0 = t.val / 8 ∧ win0_6.index t 1 = 0) ∧ (win0_7.index t 0 = t.val / 8 ∧ win0_7.index t 1 = 0) :=
  (by decide +kernel : ∀ t : Fin grid0.N,
    (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = 0 ∧ win0_3.index t 1 = t.val % 8)
    ∧ (win0_4.index t 0 = t.val / 8 ∧ win0_4.index t 1 = 0) ∧ (win0_5.index t 0 = 0 ∧ win0_5.index t 1 = t.val % 8)
    ∧ (win0_6.index t 0 = t.val / 8 ∧ win0_6.index t 1 = 0) ∧ (win0_7.index t 0 = t.val / 8 ∧ win0_7.index t 1 = 0))

/-- The embeddings tile is rows `rowOf t r` of the embeddings array. -/
theorem embed_blk (c : Dev nD) (t : Fin cfg0.N) (r k : Fin 512) :
    (iblk m c 0 t : Vec F S512x512 .bf16) (ix2 r k) = (V m c main_v15 : S4096x512.Idx → Elt F .bf16) (ix2 (rowOf t r) k) := by
  unfold iblk
  rw [View.read_apply]
  show (V m c main_v15 : S4096x512.Idx → Elt F .bf16) _ = _
  refine congrArg _ (funext fun a => Fin.ext ?_)
  have hf := (index_facts t).1
  match a with
  | ⟨0, _⟩ => show win0_0.index t 0 * 512 + 1 * r.val = 512 * (t.val / 8) + r.val; rw [hf.1]; omega
  | ⟨1, _⟩ => show win0_0.index t 1 * 512 + 1 * k.val = k.val; rw [hf.2]; omega

/-- The centres tile is rows `colOf t q` of the gathered-centres array. -/
theorem centre_blk (c : Dev nD) (t : Fin cfg0.N) (q k : Fin 512) :
    (iblk m c 1 t : Vec F S512x512 .bf16) (ix2 q k) = (V m c main_v16 : S4096x512.Idx → Elt F .bf16) (ix2 (colOf t q) k) := by
  unfold iblk
  rw [View.read_apply]
  show (V m c main_v16 : S4096x512.Idx → Elt F .bf16) _ = _
  refine congrArg _ (funext fun a => Fin.ext ?_)
  have hf := (index_facts t).2.1
  match a with
  | ⟨0, _⟩ => show win0_1.index t 0 * 512 + 1 * q.val = 512 * (t.val % 8) + q.val; rw [hf.1]; omega
  | ⟨1, _⟩ => show win0_1.index t 1 * 512 + 1 * k.val = k.val; rw [hf.2]; omega

/-- The row-norm tile is rows `rowOf t r` of the row-norm column. -/
theorem rowNorm_blk (c : Dev nD) (t : Fin cfg0.N) (r : Fin 512) :
    (iblk m c 2 t : Vec F S512x1 .f32) (ix2 r 0) = (V m c main_v9 : S4096x1.Idx → Elt F .f32) (ix2 (rowOf t r) 0) := by
  unfold iblk
  rw [View.read_apply]
  show (V m c main_v9 : S4096x1.Idx → Elt F .f32) _ = _
  refine congrArg _ (funext fun a => Fin.ext ?_)
  have hf := (index_facts t).2.2.1
  match a with
  | ⟨0, _⟩ => show win0_2.index t 0 * 512 + 1 * r.val = 512 * (t.val / 8) + r.val; rw [hf.1]; omega
  | ⟨1, _⟩ => show win0_2.index t 1 * 1 + 1 * 0 = 0; rw [hf.2]

/-- The centre-norm tile is columns `colOf t q` of the centre-norm row. -/
theorem centreNorm_blk (c : Dev nD) (t : Fin cfg0.N) (q : Fin 512) :
    (iblk m c 3 t : Vec F S1x512 .f32) (ix2 0 q) = (V m c main_v12 : S1x4096.Idx → Elt F .f32) (ix2 0 (colOf t q)) := by
  unfold iblk
  rw [View.read_apply]
  show (V m c main_v12 : S1x4096.Idx → Elt F .f32) _ = _
  refine congrArg _ (funext fun a => Fin.ext ?_)
  have hf := (index_facts t).2.2.2.1
  match a with
  | ⟨0, _⟩ => show win0_3.index t 0 * 1 + 1 * 0 = 0; rw [hf.1]
  | ⟨1, _⟩ => show win0_3.index t 1 * 512 + 1 * q.val = 512 * (t.val % 8) + q.val; rw [hf.2]; omega

/-- The label-column tile is rows `rowOf t r` of the label column. -/
theorem labelCol_blk (c : Dev nD) (t : Fin cfg0.N) (r : Fin 512) :
    (iblk m c 4 t : Vec F S512x1 .i32) (ix2 r 0) = (V m c main_v13 : S4096x1.Idx → Elt F .i32) (ix2 (rowOf t r) 0) := by
  unfold iblk
  rw [View.read_apply]
  show (V m c main_v13 : S4096x1.Idx → Elt F .i32) _ = _
  refine congrArg _ (funext fun a => Fin.ext ?_)
  have hf := (index_facts t).2.2.2.2.1
  match a with
  | ⟨0, _⟩ => show win0_4.index t 0 * 512 + 1 * r.val = 512 * (t.val / 8) + r.val; rw [hf.1]; omega
  | ⟨1, _⟩ => show win0_4.index t 1 * 1 + 1 * 0 = 0; rw [hf.2]

/-- The label-row tile is columns `colOf t q` of the label row. -/
theorem labelRow_blk (c : Dev nD) (t : Fin cfg0.N) (q : Fin 512) :
    (iblk m c 5 t : Vec F S1x512 .i32) (ix2 0 q) = (V m c main_v14 : S1x4096.Idx → Elt F .i32) (ix2 0 (colOf t q)) := by
  unfold iblk
  rw [View.read_apply]
  show (V m c main_v14 : S1x4096.Idx → Elt F .i32) _ = _
  refine congrArg _ (funext fun a => Fin.ext ?_)
  have hf := (index_facts t).2.2.2.2.2.1
  match a with
  | ⟨0, _⟩ => show win0_5.index t 0 * 1 + 1 * 0 = 0; rw [hf.1]
  | ⟨1, _⟩ => show win0_5.index t 1 * 512 + 1 * q.val = 512 * (t.val % 8) + q.val; rw [hf.2]; omega

end Cert.KernelIdeal.Blocks

end
-- ==== Proof.HardestSpec.lean ====
/-
  Triplet-centre mining, stated once for both programs.

  For a batch of 4096 embedding rows X, the centre rows C gathered for the same batch, their squared norms
  xn and cn, and the class labels tg, the clipped distance between row i and centre row j is
      dist i j = sqrt (max eps ((xn i + cn j) - 2 * sum_k X(i,k) * C(j,k))).
  A row's hardest positive is the largest distance to a centre of its own class, its hardest negative the
  smallest distance to a centre of another class; entries of the wrong kind are masked by -inf / +inf, which
  are the neutral elements of max / min on the extended reals.

  A maximum over all 4096 columns may be taken a block of columns at a time: the running maximum over the
  first n + k columns is the larger of the running maximum over the first n and the maximum over the next k
  (`maxBelow_add`); likewise for minima. These are statements about a linear order only, so they are proved
  through the universal property of a fold of max / min and need nothing about the entries.
-/
import Idealize.ShloMosaic.PureOps.Ideal
import Idealize.ShloMosaic.PureOps.Ideal.Laws
import Idealize.ShloMosaic.Lib.ValueIdx
import Mathlib.Data.Finset.Fold

noncomputable section

namespace Cert.TripletMining

open Idealize.ShloMosaic Idealize.ShloMosaic.ValueIdx

/-! ## Running maxima and minima over the leading columns -/

section Folds

variable {α : Type} [LinearOrder α] {N : ℕ}

/-- The maximum, from the start value `b`, of `f` over the columns below `n`. -/
def maxBelow (f : Fin N → α) (b : α) (n : ℕ) : α :=
  (Finset.univ.filter fun j : Fin N => j.val < n).fold max b f

/-- The minimum, from the start value `b`, of `f` over the columns below `n`. -/
def minBelow (f : Fin N → α) (b : α) (n : ℕ) : α :=
  (Finset.univ.filter fun j : Fin N => j.val < n).fold min b f

/-- Over no column the running maximum is the start value. -/
theorem maxBelow_zero (f : Fin N → α) (b : α) : maxBelow f b 0 = b := by
  unfold maxBelow
  rw [Finset.filter_false_of_mem (fun j _ => Nat.not_lt_zero _)]
  exact Finset.fold_empty

theorem minBelow_zero (f : Fin N → α) (b : α) : minBelow f b 0 = b := by
  unfold minBelow
  rw [Finset.filter_false_of_mem (fun j _ => Nat.not_lt_zero _)]
  exact Finset.fold_empty

/-- Over every column it is the maximum over the whole row. -/
theorem maxBelow_all (f : Fin N → α) (b : α) : maxBelow f b N = Finset.univ.fold max b f := by
  unfold maxBelow
  rw [Finset.filter_true_of_mem (fun j _ => j.isLt)]

theorem minBelow_all (f : Fin N → α) (b : α) : minBelow f b N = Finset.univ.fold min b f := by
  unfold minBelow
  rw [Finset.filter_true_of_mem (fun j _ => j.isLt)]

/-- One more block of `k` columns: the running maximum below `n + k` is the larger of the running maximum
    below `n` and the block's own maximum. -/
theorem maxBelow_add (f : Fin N → α) (b : α) (n k : ℕ) (h : n + k ≤ N) :
    maxBelow f b (n + k)
      = max (maxBelow f b n)
          ((Finset.univ : Finset (Fin k)).fold max b fun q => f ⟨n + q.val, by have := q.isLt; omega⟩) := by
  refine eq_of_forall_ge_iff fun c => ?_
  unfold maxBelow
  simp only [max_le_iff, Finset.fold_max_le, Finset.mem_filter, Finset.mem_univ, true_and]
  constructor
  · rintro ⟨hb, hf⟩
    exact ⟨⟨hb, fun j hj => hf j (by omega)⟩, hb, fun q _ => hf _ (by have := q.isLt; show n + q.val < n + k; omega)⟩
  · rintro ⟨⟨hb, hf⟩, -, hg⟩
    refine ⟨hb, fun j hj => ?_⟩
    by_cases hjn : j.val < n
    · exact hf j hjn
    · have hq := hg ⟨j.val - n, by omega⟩ trivial
      have e : (⟨n + (j.val - n), by have := j.isLt; omega⟩ : Fin N) = j := Fin.ext (by simp only; omega)
      rw [e] at hq
      exact hq

/-- The same for minima. -/
theorem minBelow_add (f : Fin N → α) (b : α) (n k : ℕ) (h : n + k ≤ N) :
    minBelow f b (n + k)
      = min (minBelow f b n)
          ((Finset.univ : Finset (Fin k)).fold min b fun q => f ⟨n + q.val, by have := q.isLt; omega⟩) := by
  refine eq_of_forall_le_iff fun c => ?_
  unfold minBelow
  simp only [le_min_iff, Finset.le_fold_min, Finset.mem_filter, Finset.mem_univ, true_and]
  constructor
  · rintro ⟨hb, hf⟩
    exact ⟨⟨hb, fun j hj => hf j (by omega)⟩, hb, fun q _ => hf _ (by have := q.isLt; show n + q.val < n + k; omega)⟩
  · rintro ⟨⟨hb, hf⟩, -, hg⟩
    refine ⟨hb, fun j hj => ?_⟩
    by_cases hjn : j.val < n
    · exact hf j hjn
    · have hq := hg ⟨j.val - n, by omega⟩ trivial
      have e : (⟨n + (j.val - n), by have := j.isLt; omega⟩ : Fin N) = j := Fin.ext (by simp only; omega)
      rw [e] at hq
      exact hq

end Folds

/-! ## The mined distances -/

section Distances

variable (X C : (⟨2, ![4096, 512]⟩ : Shape).Idx → EReal) (xn cn : (⟨1, ![4096]⟩ : Shape).Idx → EReal)
  (tg : (⟨1, ![4096]⟩ : Shape).Idx → BitVec 32)

/-- The clipped distance between embedding row `i` and centre row `j`, from the expanded square. -/
def dist (i j : Fin 4096) : EReal :=
  Ideal.sqrt (max (Ideal.ofBits .f32 0x2B8CBCCC#32)
    ((xn (ix1 i) + cn (ix1 j))
      - Ideal.ofBits .f32 0x40000000#32 * ∑ k : Fin 512, X (ix2 i k) * C (ix2 j k)))

/-- Whether rows `i` and `j` carry the same class label, as a one-bit word. -/
def same (i j : Fin 4096) : BitVec 1 := IntOp.cmpi .eq (tg (ix1 i)) (tg (ix1 j))

/-- The distance where the classes agree, -inf elsewhere. -/
def pos (i j : Fin 4096) : EReal :=
  Scalar.select (same tg i j) (dist X C xn cn i j) (Ideal.ofBits .f32 0xFF800000#32)

/-- +inf where the classes agree, the distance elsewhere. -/
def neg (i j : Fin 4096) : EReal :=
  Scalar.select (same tg i j) (Ideal.ofBits .f32 0x7F800000#32) (dist X C xn cn i j)

/-- Row `i`'s hardest positive: the largest masked distance over all columns. -/
def hardestPos (i : Fin 4096) : EReal :=
  Finset.univ.fold max (Ideal.ofBits .f32 0xFF800000#32) (pos X C xn cn tg i)

/-- Row `i`'s hardest negative: the smallest masked distance over all columns. -/
def hardestNeg (i : Fin 4096) : EReal :=
  Finset.univ.fold min (Ideal.ofBits .f32 0x7F800000#32) (neg X C xn cn tg i)

end Distances

end Cert.TripletMining

end
-- ==== Proof.TileBody.lean ====
/-
  One 512 x 512 tile of the mining kernel, read at an index on the extended reals.

  The body forms, for tile rows r and tile columns q, the clipped distance
      sqrt (max eps ((x2 r + x3 q) - 2 * sum_k x0(r,k) * x1(q,k)))
  (the matrix unit contracts the last axis of both operands, so no transpose appears), masks it by the
  equality of the two label vectors, reduces each row over the tile's columns by max (from -inf) and by min
  (from +inf), and merges the two row results into the running columns it keeps in its two outputs.
-/
import proofs.«123725_j72413148610843_1_alg».proof.Proof.Gen.KernelIdeal.Skeleton
import proofs.«123725_j72413148610843_1_alg».proof.Proof.HardestSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Gen

/-! ## Layout, contraction and reduction read at an index -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the left operand's row axis the operand index is the output's row. -/
private theorem lhs_tile_0 (i : S512x512.Idx) (c : dot_S512x512_S512x512_S512x512_1_1_0_0_n_n.contr.Idx) :
    (dot_S512x512_S512x512_S512x512_1_1_0_0_n_n.lhsIdx i c 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
/-- On the left operand's contracted axis it is the contraction coordinate. -/
private theorem lhs_tile_1 (i : S512x512.Idx) (c : dot_S512x512_S512x512_S512x512_1_1_0_0_n_n.contr.Idx) :
    (dot_S512x512_S512x512_S512x512_1_1_0_0_n_n.lhsIdx i c 1).val = (c ⟨0, by decide⟩).val :=
  dot_S512x512_S512x512_S512x512_1_1_0_0_n_n.lhsIdx_val_of_single rfl i c
/-- On the right operand's row axis the operand index is the output's column. -/
private theorem rhs_tile_0 (i : S512x512.Idx) (c : dot_S512x512_S512x512_S512x512_1_1_0_0_n_n.contr.Idx) :
    (dot_S512x512_S512x512_S512x512_1_1_0_0_n_n.rhsIdx i c 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl
/-- On the right operand's contracted axis it is the contraction coordinate. -/
private theorem rhs_tile_1 (i : S512x512.Idx) (c : dot_S512x512_S512x512_S512x512_1_1_0_0_n_n.contr.Idx) :
    (dot_S512x512_S512x512_S512x512_1_1_0_0_n_n.rhsIdx i c 1).val = (c ⟨0, by decide⟩).val :=
  dot_S512x512_S512x512_S512x512_1_1_0_0_n_n.rhsIdx_val_of_single rfl i c

/-- The matrix product into the zero tile, at (r, q): both operands are contracted along their last axis, so the
    element is the sum over k of the left operand at (r, k) times the right operand at (q, k). -/
private theorem matmul_tile_apply (a b : FVec Ideal S512x512 .bf16) (r q : Fin 512) :
    matmul dot_S512x512_S512x512_S512x512_1_1_0_0_n_n none a b (constant (F := Ideal) S512x512 .f32 0x00000000#32) (ix2 r q)
      = ∑ k : Fin 512, a (ix2 r k) * b (ix2 q k) := by
  simp only [matmul]
  rw [Ideal.matmul_constant_zero_apply,
    ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 r q)
      ((ValueIdx.contrEquiv1 dot_S512x512_S512x512_S512x512_1_1_0_0_n_n 512 rfl rfl).symm k) = ix2 r k :=
    funext fun ax => Fin.ext (by
      match ax with
      | ⟨0, _⟩ => exact lhs_tile_0 _ _
      | ⟨1, _⟩ => exact (lhs_tile_1 _ _).trans hk)
  have er : dot_S512x512_S512x512_S512x512_1_1_0_0_n_n.rhsIdx (ix2 r q)
      ((ValueIdx.contrEquiv1 dot_S512x512_S512x512_S512x512_1_1_0_0_n_n 512 rfl rfl).symm k) = ix2 q k :=
    funext fun ax => Fin.ext (by
      match ax with
      | ⟨0, _⟩ => exact rhs_tile_0 _ _
      | ⟨1, _⟩ => exact (rhs_tile_1 _ _).trans hk)
  rw [el, er]

/-- The source index over row `r` with column `q` inserted is `(r, q)`. -/
private theorem lift_row (r q : Fin 512) : reduces_S512x512_S512.lift (ix1 r) q = ix2 r q :=
  funext fun ax => Fin.ext (by
    match ax with
    | ⟨0, _⟩ => rfl
    | ⟨1, _⟩ => rfl)

/-- A float `<minimumf>` reduction over one axis, on the extended reals: the fold of `min` from the accumulator's value
    over that axis's coordinates (`min` commutes and associates, so the order of the fold does not matter). -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

variable (x0 x1 : Vec Ideal S512x512 .bf16) (x2 : Vec Ideal S512x1 .f32) (x3 : Vec Ideal S1x512 .f32)
  (x4 : Vec Ideal S512x1 .i32) (x5 : Vec Ideal S1x512 .i32)

/-- The tile's clipped distance at (r, q). -/
def tileDist (r q : Fin 512) : EReal :=
  Ideal.sqrt (max (Ideal.ofBits .f32 0x2B8CBCCC#32)
    ((x2 (ix2 r 0) + x3 (ix2 0 q))
      - Ideal.ofBits .f32 0x40000000#32 * ∑ k : Fin 512, x0 (ix2 r k) * x1 (ix2 q k)))

/-- Whether tile row r and tile column q carry the same label. -/
def tileSame (r q : Fin 512) : BitVec 1 := IntOp.cmpi .eq (x4 (ix2 r 0)) (x5 (ix2 0 q))

/-- The distance tile at an index. -/
theorem pay5_apply (r q : Fin 512) : k0_pay5 (F := Ideal) x0 x1 x2 x3 (ix2 r q) = tileDist x0 x1 x2 x3 r q := by
  unfold k0_pay5 tileDist
  show Ideal.sqrt (max (Ideal.ofBits .f32 0x2B8CBCCC#32)
    ((broadcastTo S512x512 (shapeCast S512x1 x2 shapeCasts_S512x1_S512x1) broadcasts_S512x1_S512x512 (ix2 r q)
        + broadcastTo S512x512 (shapeCast S1x512 x3 shapeCasts_S1x512_S1x512) broadcasts_S1x512_S512x512 (ix2 r q))
      - Ideal.ofBits .f32 0x40000000#32
        * matmul dot_S512x512_S512x512_S512x512_1_1_0_0_n_n none
            (shapeCast S512x512 x0 shapeCasts_S512x512_S512x512) (shapeCast S512x512 x1 shapeCasts_S512x512_S512x512)
            (constant (F := Ideal) S512x512 .f32 0x00000000#32) (ix2 r q))) = _
  rw [shapeCast_self, shapeCast_self, shapeCast_self, shapeCast_self, broadcastTo_a1_ab_apply, broadcastTo_1b_ab_apply,
    matmul_tile_apply]

/-- The label-equality tile at an index. -/
theorem pay6_apply (r q : Fin 512) : k0_pay6 (F := Ideal) x4 x5 (ix2 r q) = tileSame x4 x5 r q := by
  unfold k0_pay6 tileSame
  show IntOp.cmpi .eq
      (broadcastTo S512x512 (shapeCast S512x1 x4 shapeCasts_S512x1_S512x1) broadcasts_S512x1_S512x512 (ix2 r q))
      (broadcastTo S512x512 (shapeCast S1x512 x5 shapeCasts_S1x512_S1x512) broadcasts_S1x512_S512x512 (ix2 r q)) = _
  rw [shapeCast_self, shapeCast_self, broadcastTo_a1_ab_apply, broadcastTo_1b_ab_apply]

/-- The negatives' tile at an index: +inf where the labels agree, the distance elsewhere. -/
theorem pay7_apply (r q : Fin 512) :
    k0_pay7 (F := Ideal) x0 x1 x2 x3 x4 x5 (ix2 r q)
      = Scalar.select (tileSame x4 x5 r q) (Ideal.ofBits .f32 0x7F800000#32) (tileDist x0 x1 x2 x3 r q) := by
  unfold k0_pay7
  show Scalar.select (k0_pay6 (F := Ideal) x4 x5 (ix2 r q)) (Ideal.ofBits .f32 0x7F800000#32)
    (k0_pay5 (F := Ideal) x0 x1 x2 x3 (ix2 r q)) = _
  rw [pay6_apply, pay5_apply]

/-- The positives' row maxima over the tile's columns. -/
theorem pay9_apply (r : Fin 512) :
    k0_pay9 (F := Ideal) x0 x1 x2 x3 x4 x5 (ix1 r)
      = (Finset.univ : Finset (Fin 512)).fold max (Ideal.ofBits .f32 0xFF800000#32) fun q =>
          Scalar.select (tileSame x4 x5 r q) (tileDist x0 x1 x2 x3 r q) (Ideal.ofBits .f32 0xFF800000#32) := by
  unfold k0_pay9
  refine (Ideal.multiReduction_maximumf_single (a := 1) _ _ reduces_S512x512_S512 _ _ (ix1 r)).trans ?_
  refine congrArg (Finset.fold max (Ideal.ofBits .f32 0xFF800000#32) · (Finset.univ : Finset (Fin 512)))
    (funext fun q : Fin 512 => ?_)
  show select (k0_pay6 (F := Ideal) x4 x5) (k0_pay5 (F := Ideal) x0 x1 x2 x3) (broadcast S512x512 (Ideal.ofBits .f32 0xFF800000#32))
    (reduces_S512x512_S512.lift (ix1 r) q) = _
  rw [lift_row, select_apply, pay6_apply, pay5_apply, broadcast_apply]

/-- Merging a tile's row maxima into the running column. -/
theorem pay1_apply (v33 : FVec Ideal S512x1 .f32) (v34 : FVec Ideal S512 .f32) (r : Fin 512) :
    k0_pay1 (F := Ideal) v33 v34 (ix2 r 0) = max (v33 (ix2 r 0)) (v34 (ix1 r)) := by
  unfold k0_pay1
  show max (v33 (ix2 r 0)) (shapeCast S512x1 v34 shapeCasts_S512_S512x1 (ix2 r 0)) = _
  rw [shapeCast_a_a1_apply]

/-- Merging a tile's row minima into the running column. -/
theorem pay2_apply (v31 : FVec Ideal S512x512 .f32) (v38 : Vec Ideal S512x1 .f32) (r : Fin 512) :
    k0_pay2 (F := Ideal) v31 v38 (ix2 r 0)
      = min (v38 (ix2 r 0))
          ((Finset.univ : Finset (Fin 512)).fold min (Ideal.ofBits .f32 0x7F800000#32) fun q => v31 (ix2 r q)) := by
  unfold k0_pay2
  show min (shapeCast S512x1 v38 shapeCasts_S512x1_S512x1 (ix2 r 0))
    (shapeCast S512x1 (multiReduction (F := Ideal) .minimumf [1] S512 v31 0x7F800000#32 reduces_S512x512_S512 (.inl rfl) rfl)
      shapeCasts_S512_S512x1 (ix2 r 0)) = _
  rw [shapeCast_self, shapeCast_a_a1_apply]
  refine congrArg (min (v38 (ix2 r 0))) ?_
  refine (multiReduction_minimumf_single (a := 1) _ _ reduces_S512x512_S512 _ _ (ix1 r)).trans ?_
  refine congrArg (Finset.fold min (Ideal.ofBits .f32 0x7F800000#32) · (Finset.univ : Finset (Fin 512)))
    (funext fun q : Fin 512 => ?_)
  show v31 (reduces_S512x512_S512.lift (ix1 r) q) = _
  rw [lift_row]

/-- The running column as loaded is the running column. -/
theorem pay8_eq (v32 : Vec Ideal S512x1 .f32) : k0_pay8 (F := Ideal) v32 = v32 := by
  unfold k0_pay8
  exact shapeCast_self _ _

/-- The reset values: -inf for the maxima, +inf for the minima. -/
theorem pay3_apply (y : S512x1.Idx) : k0_pay3 (F := Ideal) y = Ideal.ofBits .f32 0xFF800000#32 := by
  rfl

theorem pay4_apply (y : S512x1.Idx) : k0_pay4 (F := Ideal) y = Ideal.ofBits .f32 0x7F800000#32 := by
  rfl

end Cert.KernelIdeal.Tile

end
-- ==== Proof.HostArrays.lean ====
/-
  The six arrays the mining region reads, as the host lines before it leave them, read at an index on the
  extended reals: the embeddings and the gathered centres (narrowed to bf16, which changes nothing here), the
  rows' squared norms as a column and the centres' squared norms as a row, and the class labels as a column
  and as a row.
-/
import proofs.«123725_j72413148610843_1_alg».proof.Proof.Gen.KernelIdeal.Frame.Runs
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.HostSide

open Idealize.ShloMosaic Idealize.ShloMosaic.TcCoe Idealize.ShloMosaic.ValueIdx Idealize.SL.Sem
open Cert.KernelIdeal Cert.KernelIdeal.Gen

/-- The centre rows gathered for the batch: row j is the centre of row j's class (a negative label counted
    from the end, as array indexing does). -/
def centres (a1 : IVec S4096 32) (a2 : FVec Ideal S1000x512 .f32) : FVec Ideal S4096x512 .f32 :=
  Host.gather gather_S1000x512_S4096x1_S4096x512_1_0_n_n_0_1_1512 a2
    (broadcastInDim S4096x1 ![0] bcast_S4096_S4096x1_0
      (select (cmpi .slt a1 (broadcastInDim S4096 ![] bcast_S_S4096 (constantI S_ 32 0#32)))
        (addi a1 (broadcastInDim S4096 ![] bcast_S_S4096 (constantI S_ 32 1000#32))) a1))

/-- The squared norm of every row of a 4096 x 512 array. -/
def rowNorms (a : FVec Ideal S4096x512 .f32) : FVec Ideal S4096 .f32 :=
  Host.reduceAdd (mulf a a) (constant S_ .f32 0x00000000#32) reducesTo_S4096x512_S4096_d1 h_S_

variable (m : (ℓ : Loc nD τ sig) → Buf (Elt Ideal) ℓ) (c : Dev nD)

/-- The three arguments as launched, at their literal types. -/
abbrev arg0 : FVec Ideal S4096x512 .f32 := m ((c : Thread nD τ).loc main_arg0)
abbrev arg1 : IVec S4096 32 := m ((c : Thread nD τ).loc main_arg1)
abbrev arg2 : FVec Ideal S1000x512 .f32 := m ((c : Thread nD τ).loc main_arg2)

/-! ## The arrays as the host lines' composed terms -/

/-- The embeddings window's array is the first argument narrowed to bf16. -/
private theorem v15_eq : (V m c main_v15 : S4096x512.Idx → EReal) = truncf .bf16 (arg0 m c) bitsLt_bf16_f32 := by
  dsimp only [Gen.V, Gen.V0]
  simp only [Gen.hostOps0, List.flatten_cons, List.flatten_nil, List.append_nil, List.cons_append, List.nil_append]
  after_results

/-- The centres window's array is the gathered centres narrowed to bf16. -/
private theorem v16_eq : (V m c main_v16 : S4096x512.Idx → EReal)
    = truncf .bf16 (centres (arg1 m c) (arg2 m c)) bitsLt_bf16_f32 := by
  dsimp only [Gen.V, Gen.V0]
  simp only [Gen.hostOps0, List.flatten_cons, List.flatten_nil, List.append_nil, List.cons_append, List.nil_append]
  after_results
  rfl

/-- The row-norm column is the embeddings' squared norms broadcast along a trailing unit axis. -/
private theorem v9_eq : (V m c main_v9 : S4096x1.Idx → EReal)
    = broadcastInDim S4096x1 ![0] bcast_S4096_S4096x1_0 (rowNorms (arg0 m c)) := by
  dsimp only [Gen.V, Gen.V0]
  simp only [Gen.hostOps0, List.flatten_cons, List.flatten_nil, List.append_nil, List.cons_append, List.nil_append]
  after_results
  rfl

/-- The centre-norm row is the gathered centres' squared norms under a leading unit axis. -/
private theorem v12_eq : (V m c main_v12 : S1x4096.Idx → EReal)
    = shapeCast S1x4096 (rowNorms (centres (arg1 m c) (arg2 m c))) shapeCasts_S4096_S1x4096 := by
  dsimp only [Gen.V, Gen.V0]
  simp only [Gen.hostOps0, List.flatten_cons, List.flatten_nil, List.append_nil, List.cons_append, List.nil_append]
  after_results
  rfl

/-- The label column is the labels with a trailing unit axis. -/
private theorem v13_eq : (V m c main_v13 : S4096x1.Idx → BitVec 32)
    = shapeCast S4096x1 (arg1 m c) shapeCasts_S4096_S4096x1 := by
  dsimp only [Gen.V, Gen.V0]
  simp only [Gen.hostOps0, List.flatten_cons, List.flatten_nil, List.append_nil, List.cons_append, List.nil_append]
  after_results
  rfl

/-- The label row is the labels under a leading unit axis. -/
private theorem v14_eq : (V m c main_v14 : S1x4096.Idx → BitVec 32)
    = shapeCast S1x4096 (arg1 m c) shapeCasts_S4096_S1x4096 := by
  dsimp only [Gen.V, Gen.V0]
  simp only [Gen.hostOps0, List.flatten_cons, List.flatten_nil, List.append_nil, List.cons_append, List.nil_append]
  after_results
  rfl

/-! ## Two layout operations at an index -/

/-- An `[a]` array cast to `[a, 1]` reads, at `(i, u)`, the operand at `i`, whatever the unit coordinate `u`:
    the row-major position of `(i, u)` is `i * 1 + u = i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-4096 vector broadcast along a trailing unit axis reads, at `(i, u)`, the operand at `i`. -/
private theorem bcast_col_apply {α : Type} (x : S4096.Idx → α) (i : Fin 4096) (u : Fin 1) :
    broadcastInDim S4096x1 ![0] bcast_S4096_S4096x1_0 x (ix2 i u) = x (ix1 i) :=
  broadcastInDim_apply _ bcast_S4096_S4096x1_0 x (ix2 i u) (ix1 i) (fun a => match a with
    | ⟨0, _⟩ => by show i.val = if (4096 : Nat) = 1 then 0 else i.val; rw [if_neg (by decide)])

/-! ## The six arrays at an index -/

/-- The embeddings window's array is the embeddings. -/
theorem embed_at (i : Fin 4096) (k : Fin 512) :
    (V m c main_v15 : S4096x512.Idx → EReal) (ix2 i k) = arg0 m c (ix2 i k) := by
  rw [v15_eq m c]; rfl

/-- The centres window's array is the gathered centres. -/
theorem centre_at (j : Fin 4096) (k : Fin 512) :
    (V m c main_v16 : S4096x512.Idx → EReal) (ix2 j k) = centres (arg1 m c) (arg2 m c) (ix2 j k) := by
  rw [v16_eq m c]; rfl

/-- The row-norm column holds the embeddings' squared norms. -/
theorem rowNorm_at (i : Fin 4096) :
    (V m c main_v9 : S4096x1.Idx → EReal) (ix2 i 0) = rowNorms (arg0 m c) (ix1 i) := by
  rw [v9_eq m c]; exact bcast_col_apply _ i 0

/-- The centre-norm row holds the gathered centres' squared norms. -/
theorem centreNorm_at (j : Fin 4096) :
    (V m c main_v12 : S1x4096.Idx → EReal) (ix2 0 j) = rowNorms (centres (arg1 m c) (arg2 m c)) (ix1 j) := by
  rw [v12_eq m c]; exact shapeCast_a_1a_apply _ _ 0 j

/-- The label column holds the labels. -/
theorem labelCol_at (i : Fin 4096) :
    (V m c main_v13 : S4096x1.Idx → BitVec 32) (ix2 i 0) = arg1 m c (ix1 i) := by
  rw [v13_eq m c]; exact shapeCast_a_a1_apply _ _ i 0

/-- The label row holds the labels. -/
theorem labelRow_at (j : Fin 4096) :
    (V m c main_v14 : S1x4096.Idx → BitVec 32) (ix2 0 j) = arg1 m c (ix1 j) := by
  rw [v14_eq m c]; exact shapeCast_a_1a_apply _ _ 0 j

end Cert.KernelIdeal.HostSide

end
-- ==== Proof.Mined.lean ====
/-
  What the two running columns hold after every grid point, and so what the two result arrays hold at the end.

  Point t works on tile row t / 8 and tile column t % 8, and the 64 points run through a tile row's eight tile
  columns in order. After point t the maxima column holds, at tile row r, the largest masked distance of batch
  row 512 (t / 8) + r over the columns below 512 (t % 8 + 1), and the minima column the smallest: at the first
  tile of a tile row the column restarts from the neutral element, which is the running value over no column at
  all, and every tile merges its own 512 columns into what the tile before left (`maxBelow_add`, `minBelow_add`).
-/
import proofs.«123725_j72413148610843_1_alg».proof.Proof.Pieces
import proofs.«123725_j72413148610843_1_alg».proof.Proof.Blocks
import proofs.«123725_j72413148610843_1_alg».proof.Proof.TileBody
import proofs.«123725_j72413148610843_1_alg».proof.Proof.HostArrays
import proofs.«123725_j72413148610843_1_alg».proof.Proof.HardestSpec

set_option maxRecDepth 16384

noncomputable section

namespace Cert.KernelIdeal.Mined

open Idealize.ShloMosaic Idealize.ShloMosaic.TcCoe Idealize.ShloMosaic.ValueIdx Idealize.SL.Sem
open Cert.KernelIdeal Cert.KernelIdeal.Gen Cert.KernelIdeal.Blocks Cert.KernelIdeal.HostSide Cert.KernelIdeal.Tile
open Cert.TripletMining

variable (m : (ℓ : Loc nD τ sig) → Buf (Elt Ideal) ℓ) (c : Dev nD)

/-- The six input tiles of point t, at their literal types. -/
abbrev tile0 (t : Fin cfg0.N) : Vec Ideal S512x512 .bf16 := iblk m c 0 t
abbrev tile1 (t : Fin cfg0.N) : Vec Ideal S512x512 .bf16 := iblk m c 1 t
abbrev tile2 (t : Fin cfg0.N) : Vec Ideal S512x1 .f32 := iblk m c 2 t
abbrev tile3 (t : Fin cfg0.N) : Vec Ideal S1x512 .f32 := iblk m c 3 t
abbrev tile4 (t : Fin cfg0.N) : Vec Ideal S512x1 .i32 := iblk m c 4 t
abbrev tile5 (t : Fin cfg0.N) : Vec Ideal S1x512 .i32 := iblk m c 5 t

/-- The batch's masked distances, from the three arguments. -/
abbrev posOf (i j : Fin 4096) : EReal :=
  pos (arg0 m c) (centres (arg1 m c) (arg2 m c)) (rowNorms (arg0 m c)) (rowNorms (centres (arg1 m c) (arg2 m c))) (arg1 m c) i j
abbrev negOf (i j : Fin 4096) : EReal :=
  neg (arg0 m c) (centres (arg1 m c) (arg2 m c)) (rowNorms (arg0 m c)) (rowNorms (centres (arg1 m c) (arg2 m c))) (arg1 m c) i j

/-- A tile's distance entry is the batch's at the tile's place. -/
theorem tile_dist (t : Fin cfg0.N) (r q : Fin 512) :
    tileDist (tile0 m c t) (tile1 m c t) (tile2 m c t) (tile3 m c t) r q
      = dist (arg0 m c) (centres (arg1 m c) (arg2 m c)) (rowNorms (arg0 m c)) (rowNorms (centres (arg1 m c) (arg2 m c)))
          (rowOf t r) (colOf t q) := by
  have e0 : ∀ k, tile0 m c t (ix2 r k) = arg0 m c (ix2 (rowOf t r) k) :=
    fun k => (embed_blk m c t r k).trans (embed_at m c _ k)
  have e1 : ∀ k, tile1 m c t (ix2 q k) = centres (arg1 m c) (arg2 m c) (ix2 (colOf t q) k) :=
    fun k => (centre_blk m c t q k).trans (centre_at m c _ k)
  have e2 : tile2 m c t (ix2 r 0) = rowNorms (arg0 m c) (ix1 (rowOf t r)) :=
    (rowNorm_blk m c t r).trans (rowNorm_at m c _)
  have e3 : tile3 m c t (ix2 0 q) = rowNorms (centres (arg1 m c) (arg2 m c)) (ix1 (colOf t q)) :=
    (centreNorm_blk m c t q).trans (centreNorm_at m c _)
  unfold tileDist TripletMining.dist
  rw [e2, e3, Finset.sum_congr rfl fun k _ => show tile0 m c t (ix2 r k) * tile1 m c t (ix2 q k) = _ from by rw [e0 k, e1 k]]

/-- A tile's label-equality entry is the batch's at the tile's place. -/
theorem tile_same (t : Fin cfg0.N) (r q : Fin 512) :
    tileSame (tile4 m c t) (tile5 m c t) r q = same (arg1 m c) (rowOf t r) (colOf t q) := by
  have e4 : tile4 m c t (ix2 r 0) = arg1 m c (ix1 (rowOf t r)) := (labelCol_blk m c t r).trans (labelCol_at m c _)
  have e5 : tile5 m c t (ix2 0 q) = arg1 m c (ix1 (colOf t q)) := (labelRow_blk m c t q).trans (labelRow_at m c _)
  unfold tileSame same
  rw [e4, e5]

/-- The tile's row maxima are the maxima of the batch row over the tile's columns. -/
theorem tile_rowMax (t : Fin cfg0.N) (r : Fin 512) :
    k0_pay9 (F := Ideal) (tile0 m c t) (tile1 m c t) (tile2 m c t) (tile3 m c t) (tile4 m c t) (tile5 m c t) (ix1 r)
      = (Finset.univ : Finset (Fin 512)).fold max (Ideal.ofBits .f32 0xFF800000#32) fun q => posOf m c (rowOf t r) (colOf t q) := by
  refine (pay9_apply _ _ _ _ _ _ r).trans (Finset.fold_congr fun q _ => ?_)
  rw [tile_same, tile_dist]
  rfl

/-- Merging the tile's row minima into a column value. -/
theorem tile_rowMin (t : Fin cfg0.N) (r : Fin 512) (v : Vec Ideal S512x1 .f32) :
    k0_pay2 (F := Ideal) (k0_pay7 (tile0 m c t) (tile1 m c t) (tile2 m c t) (tile3 m c t) (tile4 m c t) (tile5 m c t)) v (ix2 r 0)
      = min (v (ix2 r 0))
          ((Finset.univ : Finset (Fin 512)).fold min (Ideal.ofBits .f32 0x7F800000#32) fun q => negOf m c (rowOf t r) (colOf t q)) := by
  refine (pay2_apply _ _ r).trans (congrArg (min _) (Finset.fold_congr fun q _ => ?_))
  rw [pay7_apply, tile_same, tile_dist]
  rfl

/-- The running maximum of batch row `rowOf t r` once point t has merged its tile. -/
def runMax (t : Fin cfg0.N) (r : Fin 512) : EReal :=
  maxBelow (posOf m c (rowOf t r)) (Ideal.ofBits .f32 0xFF800000#32) (512 * (t.val % 8) + 512)

/-- The running minimum of batch row `rowOf t r` once point t has merged its tile. -/
def runMin (t : Fin cfg0.N) (r : Fin 512) : EReal :=
  minBelow (negOf m c (rowOf t r)) (Ideal.ofBits .f32 0x7F800000#32) (512 * (t.val % 8) + 512)

/-- One merge: from the running maximum below the tile's first column to the one below its last. -/
theorem step_max (t : Fin cfg0.N) (r : Fin 512) (p : EReal)
    (hp : p = maxBelow (posOf m c (rowOf t r)) (Ideal.ofBits .f32 0xFF800000#32) (512 * (t.val % 8))) :
    max p ((Finset.univ : Finset (Fin 512)).fold max (Ideal.ofBits .f32 0xFF800000#32) fun q => posOf m c (rowOf t r) (colOf t q))
      = runMax m c t r := by
  unfold runMax
  rw [maxBelow_add _ _ _ _ (by have := Nat.mod_lt t.val (show 0 < 8 by decide); omega), hp]
  rfl

theorem step_min (t : Fin cfg0.N) (r : Fin 512) (p : EReal)
    (hp : p = minBelow (negOf m c (rowOf t r)) (Ideal.ofBits .f32 0x7F800000#32) (512 * (t.val % 8))) :
    min p ((Finset.univ : Finset (Fin 512)).fold min (Ideal.ofBits .f32 0x7F800000#32) fun q => negOf m c (rowOf t r) (colOf t q))
      = runMin m c t r := by
  unfold runMin
  rw [minBelow_add _ _ _ _ (by have := Nat.mod_lt t.val (show 0 < 8 by decide); omega), hp]
  rfl

/-- THE INVARIANT: after every point both columns hold the running values. -/
theorem outs_eq : ∀ (n : ℕ) (h : n < cfg0.N) (r : Fin 512),
    (outsAt0 m c n h).1 (ix2 r 0) = runMax m c ⟨n, h⟩ r ∧ (outsAt0 m c n h).2 (ix2 r 0) = runMin m c ⟨n, h⟩ r := by
  intro n
  induction n with
  | zero =>
    intro h r
    rw [outsAt0_A m c ⟨0, h⟩ (Nat.zero_mod 8)]
    dsimp only
    have hz0 : 512 * ((⟨0, h⟩ : Fin cfg0.N).val % 8) = 0 := by show 512 * (0 % 8) = 0; omega
    constructor
    · refine (congrFun (Pieces.first_max (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr (Nat.zero_mod 8)) (tile0 m c ⟨0, h⟩) (tile1 m c ⟨0, h⟩) (tile2 m c ⟨0, h⟩) (tile3 m c ⟨0, h⟩) (tile4 m c ⟨0, h⟩) (tile5 m c ⟨0, h⟩)) (ix2 r 0)).trans ?_
      refine (pay1_apply _ _ r).trans ?_
      rw [pay8_eq, pay3_apply, tile_rowMax m c ⟨0, h⟩ r]
      exact step_max m c ⟨0, h⟩ r _ (by rw [hz0, maxBelow_zero])
    · refine (congrFun (Pieces.first_min (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr (Nat.zero_mod 8)) (tile0 m c ⟨0, h⟩) (tile1 m c ⟨0, h⟩) (tile2 m c ⟨0, h⟩) (tile3 m c ⟨0, h⟩) (tile4 m c ⟨0, h⟩) (tile5 m c ⟨0, h⟩)) (ix2 r 0)).trans ?_
      refine (tile_rowMin m c ⟨0, h⟩ r _).trans ?_
      rw [pay4_apply]
      exact step_min m c ⟨0, h⟩ r _ (by rw [hz0, minBelow_zero])
  | succ n ih =>
    intro h r
    have hN : n + 1 < 64 := lt_of_lt_of_eq h (show cfg0.N = 64 from N_0)
    by_cases h0 : (n + 1) % 8 = 0
    ·
      rw [outsAt0_A m c ⟨n + 1, h⟩ h0]
      dsimp only
      have hz0 : 512 * ((⟨n + 1, h⟩ : Fin cfg0.N).val % 8) = 0 := by show 512 * ((n + 1) % 8) = 0; omega
      constructor
      · refine (congrFun (Pieces.first_max (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) ((hcond0_0 ⟨n + 1, h⟩).mpr h0) (tile0 m c ⟨n + 1, h⟩) (tile1 m c ⟨n + 1, h⟩) (tile2 m c ⟨n + 1, h⟩) (tile3 m c ⟨n + 1, h⟩) (tile4 m c ⟨n + 1, h⟩) (tile5 m c ⟨n + 1, h⟩)) (ix2 r 0)).trans ?_
        refine (pay1_apply _ _ r).trans ?_
        rw [pay8_eq, pay3_apply, tile_rowMax m c ⟨n + 1, h⟩ r]
        exact step_max m c ⟨n + 1, h⟩ r _ (by rw [hz0, maxBelow_zero])
      · refine (congrFun (Pieces.first_min (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) ((hcond0_0 ⟨n + 1, h⟩).mpr h0) (tile0 m c ⟨n + 1, h⟩) (tile1 m c ⟨n + 1, h⟩) (tile2 m c ⟨n + 1, h⟩) (tile3 m c ⟨n + 1, h⟩) (tile4 m c ⟨n + 1, h⟩) (tile5 m c ⟨n + 1, h⟩)) (ix2 r 0)).trans ?_
        refine (tile_rowMin m c ⟨n + 1, h⟩ r _).trans ?_
        rw [pay4_apply]
        exact step_min m c ⟨n + 1, h⟩ r _ (by rw [hz0, minBelow_zero])
    · have hprev := ih (Nat.lt_of_succ_lt h)
      have hrow : ∀ r : Fin 512, rowOf (⟨n + 1, h⟩ : Fin cfg0.N) r = rowOf (⟨n, Nat.lt_of_succ_lt h⟩ : Fin cfg0.N) r :=
        fun r => Fin.ext (by show 512 * ((n + 1) / 8) + r.val = 512 * (n / 8) + r.val; omega)
      have hcol : 512 * (n % 8) + 512 = 512 * ((n + 1) % 8) := by omega
      rw [outsAt0_B m c ⟨n + 1, h⟩ h0]
      dsimp only
      constructor
      · refine (congrFun (Pieces.later_max (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => h0 ((hcond0_0 ⟨n + 1, h⟩).mp hc)) (tile0 m c ⟨n + 1, h⟩) (tile1 m c ⟨n + 1, h⟩) (tile2 m c ⟨n + 1, h⟩) (tile3 m c ⟨n + 1, h⟩) (tile4 m c ⟨n + 1, h⟩) (tile5 m c ⟨n + 1, h⟩) (outsAt0 m c n (Nat.lt_of_succ_lt h)).1 (outsAt0 m c n (Nat.lt_of_succ_lt h)).2) (ix2 r 0)).trans ?_
        refine (pay1_apply _ _ r).trans ?_
        rw [pay8_eq, tile_rowMax m c ⟨n + 1, h⟩ r]
        refine step_max m c ⟨n + 1, h⟩ r _ ?_
        rw [(hprev r).1]
        unfold runMax
        rw [hrow r]
        exact congrArg _ hcol
      · refine (congrFun (Pieces.later_min (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => h0 ((hcond0_0 ⟨n + 1, h⟩).mp hc)) (tile0 m c ⟨n + 1, h⟩) (tile1 m c ⟨n + 1, h⟩) (tile2 m c ⟨n + 1, h⟩) (tile3 m c ⟨n + 1, h⟩) (tile4 m c ⟨n + 1, h⟩) (tile5 m c ⟨n + 1, h⟩) (outsAt0 m c n (Nat.lt_of_succ_lt h)).1 (outsAt0 m c n (Nat.lt_of_succ_lt h)).2) (ix2 r 0)).trans ?_
        refine (tile_rowMin m c ⟨n + 1, h⟩ r _).trans ?_
        refine step_min m c ⟨n + 1, h⟩ r _ ?_
        rw [(hprev r).2]
        unfold runMin
        rw [hrow r]
        exact congrArg _ hcol

end Cert.KernelIdeal.Mined

end
-- ==== Proof.Columns.lean ====
/-
  The two result columns after the region.

  Only the last tile of a tile row (points 7, 15, … 63) writes the running columns back, each to the block of
  its tile row; by then the running values range over all 4096 columns. The eight written blocks tile the
  4096 x 1 arrays, so row i of the maxima array is row i's hardest positive and row i of the minima array is
  row i's hardest negative.
-/
import proofs.«123725_j72413148610843_1_alg».proof.Proof.Mined

set_option maxRecDepth 16384

noncomputable section

namespace Cert.KernelIdeal.Mined

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.HostSide Cert.KernelIdeal.Tile
open Cert.TripletMining

variable (m : (ℓ : Loc nD τ sig) → Buf (Elt Ideal) ℓ) (c : Dev nD)

/-- Every row's hardest positive, as a 4096 x 1 column. -/
def maxCol : S4096x1.Idx → EReal := fun i =>
  hardestPos (arg0 m c) (centres (arg1 m c) (arg2 m c)) (rowNorms (arg0 m c)) (rowNorms (centres (arg1 m c) (arg2 m c))) (arg1 m c) (i 0)

/-- Every row's hardest negative, as a 4096 x 1 column. -/
def minCol : S4096x1.Idx → EReal := fun i =>
  hardestNeg (arg0 m c) (centres (arg1 m c) (arg2 m c)) (rowNorms (arg0 m c)) (rowNorms (centres (arg1 m c) (arg2 m c))) (arg1 m c) (i 0)

/-- At a writing point the running maximum ranges over every column. -/
theorem runMax_last (t : Fin cfg0.N) (h7 : t.val % 8 = 7) (r : Fin 512) :
    runMax m c t r = maxCol m c (ix2 (rowOf t r) 0) := by
  unfold runMax maxCol hardestPos
  rw [show 512 * (t.val % 8) + 512 = 4096 by omega, maxBelow_all]

theorem runMin_last (t : Fin cfg0.N) (h7 : t.val % 8 = 7) (r : Fin 512) :
    runMin m c t r = minCol m c (ix2 (rowOf t r) 0) := by
  unfold runMin minCol hardestNeg
  rw [show 512 * (t.val % 8) + 512 = 4096 by omega, minBelow_all]

/-- What a writing point writes back to the maxima array is its block of `maxCol`. -/
theorem flushed_max (t : Fin cfg0.N) (hf : (cfg0.win 6).flush t = true) :
    (dats m 0 c).flushed 6 t = ((cfg0.win 6).blk t).view.read (Elt Ideal) (maxCol m c) := by
  have h7 : t.val % 8 = 7 := (flush0_6 t).mp hf
  show (cfg0.win 6).cut (grid0.coords t) ((dats m 0 c).after 6 t) = _
  rw [after0_6]
  funext y
  have key : ∀ y : S512x1.Idx, (outsAt0 m c t.val t.isLt).1 y = maxCol m c (((cfg0.win 6).blk t).view.emb y) := by
    intro y
    obtain ⟨r, rfl⟩ : ∃ r : Fin 512, y = ix2 r 0 :=
      ⟨y 0, funext fun a => by match a with | ⟨0, _⟩ => rfl | ⟨1, _⟩ => exact Fin.ext (Nat.lt_one_iff.mp (y 1).isLt)⟩
    refine ((outs_eq m c t.val t.isLt r).1.trans (runMax_last m c t h7 r)).trans ?_
    refine congrArg (maxCol m c) (funext fun a => Fin.ext ?_)
    have hw := (index_facts t).2.2.2.2.2.2.1
    match a with
    | ⟨0, _⟩ => show 512 * (t.val / 8) + r.val = win0_6.index t 0 * 512 + 1 * r.val; rw [hw.1]; omega
    | ⟨1, _⟩ => show 0 = win0_6.index t 1 * 1 + 1 * 0; rw [hw.2]
  exact key y

/-- What a writing point writes back to the minima array is its block of `minCol`. -/
theorem flushed_min (t : Fin cfg0.N) (hf : (cfg0.win 7).flush t = true) :
    (dats m 0 c).flushed 7 t = ((cfg0.win 7).blk t).view.read (Elt Ideal) (minCol m c) := by
  have h7 : t.val % 8 = 7 := (flush0_7 t).mp hf
  show (cfg0.win 7).cut (grid0.coords t) ((dats m 0 c).after 7 t) = _
  rw [after0_7]
  funext y
  have key : ∀ y : S512x1.Idx, (outsAt0 m c t.val t.isLt).2 y = minCol m c (((cfg0.win 7).blk t).view.emb y) := by
    intro y
    obtain ⟨r, rfl⟩ : ∃ r : Fin 512, y = ix2 r 0 :=
      ⟨y 0, funext fun a => by match a with | ⟨0, _⟩ => rfl | ⟨1, _⟩ => exact Fin.ext (Nat.lt_one_iff.mp (y 1).isLt)⟩
    refine ((outs_eq m c t.val t.isLt r).2.trans (runMin_last m c t h7 r)).trans ?_
    refine congrArg (minCol m c) (funext fun a => Fin.ext ?_)
    have hw := (index_facts t).2.2.2.2.2.2.2
    match a with
    | ⟨0, _⟩ => show 512 * (t.val / 8) + r.val = win0_7.index t 0 * 512 + 1 * r.val; rw [hw.1]; omega
    | ⟨1, _⟩ => show 0 = win0_7.index t 1 * 1 + 1 * 0; rw [hw.2]
  exact key y

/-- Every row of the maxima array lies in the block some writing point writes: the last tile of its tile row. -/
theorem cover_max (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 64 := N_0
  have ht : 8 * ((i 0).val / 512) + 7 < cfg0.N := by rw [hN]; omega
  refine ⟨⟨8 * ((i 0).val / 512) + 7, ht⟩, (flush0_6 _).mpr (by show (8 * ((i 0).val / 512) + 7) % 8 = 7; omega), ?_⟩
  show i ∈ ((View.whole main_v17_0).slice (win0_6.rect ⟨8 * ((i 0).val / 512) + 7, ht⟩)).set
  rw [View.set_slice_whole, Rect.mem_set_unit]
  intro a
  have hw := (index_facts ⟨8 * ((i 0).val / 512) + 7, ht⟩).2.2.2.2.2.2.1
  match a with
  | ⟨0, _⟩ =>
    show win0_6.index ⟨8 * ((i 0).val / 512) + 7, ht⟩ 0 * 512 ≤ (i 0).val ∧ (i 0).val < win0_6.index ⟨8 * ((i 0).val / 512) + 7, ht⟩ 0 * 512 + 512
    rw [hw.1]; show (8 * ((i 0).val / 512) + 7) / 8 * 512 ≤ (i 0).val ∧ (i 0).val < (8 * ((i 0).val / 512) + 7) / 8 * 512 + 512; omega
  | ⟨1, _⟩ =>
    show win0_6.index ⟨8 * ((i 0).val / 512) + 7, ht⟩ 1 * 1 ≤ (i 1).val ∧ (i 1).val < win0_6.index ⟨8 * ((i 0).val / 512) + 7, ht⟩ 1 * 1 + 1
    rw [hw.2]; omega

theorem cover_min (i : S4096x1.Idx) :
    ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 64 := N_0
  have ht : 8 * ((i 0).val / 512) + 7 < cfg0.N := by rw [hN]; omega
  refine ⟨⟨8 * ((i 0).val / 512) + 7, ht⟩, (flush0_7 _).mpr (by show (8 * ((i 0).val / 512) + 7) % 8 = 7; omega), ?_⟩
  show i ∈ ((View.whole main_v17_1).slice (win0_7.rect ⟨8 * ((i 0).val / 512) + 7, ht⟩)).set
  rw [View.set_slice_whole, Rect.mem_set_unit]
  intro a
  have hw := (index_facts ⟨8 * ((i 0).val / 512) + 7, ht⟩).2.2.2.2.2.2.2
  match a with
  | ⟨0, _⟩ =>
    show win0_7.index ⟨8 * ((i 0).val / 512) + 7, ht⟩ 0 * 512 ≤ (i 0).val ∧ (i 0).val < win0_7.index ⟨8 * ((i 0).val / 512) + 7, ht⟩ 0 * 512 + 512
    rw [hw.1]; show (8 * ((i 0).val / 512) + 7) / 8 * 512 ≤ (i 0).val ∧ (i 0).val < (8 * ((i 0).val / 512) + 7) / 8 * 512 + 512; omega
  | ⟨1, _⟩ =>
    show win0_7.index ⟨8 * ((i 0).val / 512) + 7, ht⟩ 1 * 1 ≤ (i 1).val ∧ (i 1).val < win0_7.index ⟨8 * ((i 0).val / 512) + 7, ht⟩ 1 * 1 + 1
    rw [hw.2]; omega

/-- THE TWO ARRAYS after the region: every row's hardest positive, every row's hardest negative. -/
theorem final_max : (dats m 0 c).arrAt 6 cfg0.N = maxCol m c :=
  (dats m 0 c).arrAt_eq_of_cover 6 (maxCol m c) (flushed_max m c) (cover_max)

theorem final_min : (dats m 0 c).arrAt 7 cfg0.N = minCol m c :=
  (dats m 0 c).arrAt_eq_of_cover 7 (minCol m c) (flushed_min m c) (cover_min)

end Cert.KernelIdeal.Mined

end
-- ==== Proof.KernelRun.lean ====
/-
  The kernel program's run, read: after the region the host takes the margin between every row's hardest
  positive and hardest negative, clamps it at zero from below, and averages over the batch.
-/
import proofs.«123725_j72413148610843_1_alg».proof.Proof.Columns
import Idealize.ShloMosaic.Lib.StableHlo.Run
import Idealize.ShloMosaic.Lib.Pipeline.FrameSuffix

set_option maxRecDepth 16384

noncomputable section

namespace Cert.KernelIdeal.Mined

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.HostSide Cert.KernelIdeal.Tile
open Cert.TripletMining

variable (m : (ℓ : Loc nD τ sig) → Buf (Elt Ideal) ℓ) (ρ : Dev nD → PrngReg) (c : Dev nD)

/-- The loss from the two mined vectors: the mean over the batch of max (p - n + margin, 0). -/
def lossVec (p n : S4096.Idx → EReal) : S_.Idx → EReal :=
  Host.divf (F := Ideal)
    (Host.reduceAdd (F := Ideal)
      (maximumf (F := Ideal)
        (addf (F := Ideal) (subf (F := Ideal) p n)
          (broadcastInDim S4096 ![] bcast_S_S4096 (constant (F := Ideal) S_ .f32 0x3E99999A#32)))
        (broadcastInDim S4096 ![] bcast_S_S4096 (constant (F := Ideal) S_ .f32 0x00000000#32)))
      (constant (F := Ideal) S_ .f32 0x00000000#32) reducesTo_S4096_S_d0 h_S_)
    (constant (F := Ideal) S_ .f32 0x45800000#32)

/-- The same from the two 4096 x 1 columns the region leaves. -/
def lossOf (ap an : S4096x1.Idx → EReal) : S_.Idx → EReal :=
  lossVec (shapeCast S4096 ap shapeCasts_S4096x1_S4096) (shapeCast S4096 an shapeCasts_S4096x1_S4096)

/-- The host lines after the region leave the loss of the two final columns in the result buffer. -/
theorem tail_eq :
    Pipeline.afterTail₀ cfgs (dats m) 0 (V0 m) [hostOps1, hostOps1_1, hostOps1_2] c main_v25 = lossOf (maxCol m c) (minCol m c) := by
  unfold Pipeline.afterTail₀
  simp only [hostOps1, hostOps1_1, hostOps1_2, List.flatten_cons, List.flatten_nil, List.append_nil, List.cons_append, List.nil_append]
  after_results
  have h6 : Pipeline.withArrays (cfgs 0).spec c (V0 m c) (fun w => (dats m 0 c).arrAt w (cfgs 0).N) (Proc.devRef .tc main_v17_0)
      = maxCol m c := (Pipeline.withArrays_arr spec0 launch0.win.arr_inj c _ _ 6).trans (final_max m c)
  have h7 : Pipeline.withArrays (cfgs 0).spec c (V0 m c) (fun w => (dats m 0 c).arrAt w (cfgs 0).N) (Proc.devRef .tc main_v17_1)
      = minCol m c := (Pipeline.withArrays_arr spec0 launch0.win.arr_inj c _ _ 7).trans (final_min m c)
  rw [h6, h7]
  rfl

/-- THE RUN, READ: every weakly fair execution of the kernel program terminates with the loss of the two final
    columns in the result buffer and the three arguments unchanged. -/
theorem run : θ_run defs (onTc (τ := τ) (main (F := Ideal))) ⟨m, fun _ => 0, ρ⟩ fun r => ∀ c : Dev nD,
      r.2.mem ((c.tc : Thread nD τ).loc main_v25) = lossOf (maxCol m c) (minCol m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Mined

end
-- ==== Proof.RefRun.lean ====
/-
  The reference program's run, a stretch at a time.

  The reference is a straight line of 59 host operations. Read as one composed term its result repeats the
  gathered centres six times and the distance matrix twice; read a stretch at a time nothing is repeated: the
  gather (9 operations), the distance matrix from the embeddings and the gathered centres (22), the two masked
  row reductions from the distance matrix and the labels (17), and the margin, the hinge and the mean from the
  two reduced vectors (11). After each stretch the buffers the next one reads hold the stage functions of the
  arguments; the four stretches follow one another, so the last buffer holds the last stage.
-/
import proofs.«123725_j72413148610843_1_alg».proof.Proof.RefStages
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-- The gather of the batch's centre rows. -/
abbrev gatherOps : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg1 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 1000#32),
    unary main_c_0 main_v2 (broadcastInDim S4096 ![] bcast_S_S4096 : (⟨S_, .i32⟩ : BufTy).Contents (Elt F) → (⟨S4096, .i32⟩ : BufTy).Contents (Elt F)),
    binary main_arg1 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg1 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg2 main_v5 main_v6 ((fun x i => Host.gather gather_S1000x512_S4096x1_S4096x512_1_0_n_n_0_1_1512 x i) : (⟨S1000x512, .f32⟩ : BufTy).Contents (Elt F) → (⟨S4096x1, .i32⟩ : BufTy).Contents (Elt F) → (⟨S4096x512, .f32⟩ : BufTy).Contents (Elt F)) ]
theorem gatherOps_sub : (gatherOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

/-- The clipped distance matrix. -/
abbrev distOps : List (HloOp τ sig (Elt F)) :=
  [ binary main_arg0 main_arg0 main_v7 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v7 main_cst main_v8 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    binary main_v6 main_v6 main_v9 (mulf : (⟨S4096x512, .f32⟩ : BufTy).Contents (Elt F) → (⟨S4096x512, .f32⟩ : BufTy).Contents (Elt F) → (⟨S4096x512, .f32⟩ : BufTy).Contents (Elt F)),
    nullary main_cst_1 (constant S_ .f32 0x00000000#32),
    binary main_v9 main_cst_1 main_v10 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v8 main_v11 (broadcastInDim S4096x1 ![0] bcast_S4096_S4096x1_0 : (⟨S4096, .f32⟩ : BufTy).Contents (Elt F) → (⟨S4096x1, .f32⟩ : BufTy).Contents (Elt F)),
    unary main_v10 main_v12 (broadcastInDim S1x4096 ![1] bcast_S4096_S1x4096_1 : (⟨S4096, .f32⟩ : BufTy).Contents (Elt F) → (⟨S1x4096, .f32⟩ : BufTy).Contents (Elt F)),
    unary main_v11 main_v13 (broadcastInDim S4096x4096 ![0, 1] bcast_S4096x1_S4096x4096_0_1 : (⟨S4096x1, .f32⟩ : BufTy).Contents (Elt F) → (⟨S4096x4096, .f32⟩ : BufTy).Contents (Elt F)),
    unary main_v12 main_v14 (broadcastInDim S4096x4096 ![0, 1] bcast_S1x4096_S4096x4096_0_1 : (⟨S1x4096, .f32⟩ : BufTy).Contents (Elt F) → (⟨S4096x4096, .f32⟩ : BufTy).Contents (Elt F)),
    binary main_v13 main_v14 main_v15 (addf : (⟨S4096x4096, .f32⟩ : BufTy).Contents (Elt F) → (⟨S4096x4096, .f32⟩ : BufTy).Contents (Elt F) → (⟨S4096x4096, .f32⟩ : BufTy).Contents (Elt F)),
    unary main_v6 main_v16 ((transpose S512x4096 [1, 0] · transposes_S4096x512_S512x4096_1_0) : (⟨S4096x512, .f32⟩ : BufTy).Contents (Elt F) → (⟨S512x4096, .f32⟩ : BufTy).Contents (Elt F)),
    binary main_arg0 main_v16 main_v17 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_2 (constant S_ .f32 0x40000000#32),
    unary main_cst_2 main_v18 (broadcastInDim S4096x4096 ![] bcast_S_S4096x4096 : (⟨S_, .f32⟩ : BufTy).Contents (Elt F) → (⟨S4096x4096, .f32⟩ : BufTy).Contents (Elt F)),
    binary main_v18 main_v17 main_v19 (mulf : (⟨S4096x4096, .f32⟩ : BufTy).Contents (Elt F) → (⟨S4096x4096, .f32⟩ : BufTy).Contents (Elt F) → (⟨S4096x4096, .f32⟩ : BufTy).Contents (Elt F)),
    binary main_v15 main_v19 main_v20 (subf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x2B8CBCCC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.binary (TRef.of (T := ⟨S4096x4096, .f32⟩) main_call0_v1) (TRef.of (T := ⟨S4096x4096, .f32⟩) main_v20) (TRef.of (T := ⟨S4096x4096, .f32⟩) main_v21) maximumf,
    unary main_v21 main_v22 (Host.sqrt : (⟨S4096x4096, .f32⟩ : BufTy).Contents (Elt F) → (⟨S4096x4096, .f32⟩ : BufTy).Contents (Elt F)) ]
theorem distOps_sub : (distOps : List (HloOp τ sig (Elt F))).Forall fun op => op.bufs ⊆ tcRefs τ sig :=
  ⟨binary_bufs_sub .., nullary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub ..⟩

/-- The two masked row reductions. -/
abbrev mineOps : List (HloOp τ sig (Elt F)) :=
  [ unary main_arg1 main_v23 (broadcastInDim S4096x1 ![0] bcast_S4096_S4096x1_0 : (⟨S4096, .i32⟩ : BufTy).Contents (Elt F) → (⟨S4096x1, .i32⟩ : BufTy).Contents (Elt F)),
    unary main_arg1 main_v24 (broadcastInDim S1x4096 ![1] bcast_S4096_S1x4096_1 : (⟨S4096, .i32⟩ : BufTy).Contents (Elt F) → (⟨S1x4096, .i32⟩ : BufTy).Contents (Elt F)),
    unary main_v23 main_v25 (broadcastInDim S4096x4096 ![0, 1] bcast_S4096x1_S4096x4096_0_1 : (⟨S4096x1, .i32⟩ : BufTy).Contents (Elt F) → (⟨S4096x4096, .i32⟩ : BufTy).Contents (Elt F)),
    unary main_v24 main_v26 (broadcastInDim S4096x4096 ![0, 1] bcast_S1x4096_S4096x4096_0_1 : (⟨S1x4096, .i32⟩ : BufTy).Contents (Elt F) → (⟨S4096x4096, .i32⟩ : BufTy).Contents (Elt F)),
    binary main_v25 main_v26 main_v27 (cmpi .eq : (⟨S4096x4096, .i32⟩ : BufTy).Contents (Elt F) → (⟨S4096x4096, .i32⟩ : BufTy).Contents (Elt F) → (⟨S4096x4096, .i1⟩ : BufTy).Contents (Elt F)),
    nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v27) (TRef.of (T := ⟨S4096x4096, .f32⟩) main_v22) (TRef.of (T := ⟨S4096x4096, .f32⟩) main_call1_v1) (TRef.of (T := ⟨S4096x4096, .f32⟩) main_v28) select,
    nullary main_cst_5 (constant S_ .f32 0xFF800000#32),
    binary main_v28 main_cst_5 main_v29 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_6 (constant S_ .f32 0x7F800000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S4096x4096, .f32⟩) main_call2_v1) (broadcastInDim S4096x4096 ![] bcast_S_S4096x4096),
    TRef.ternary (TRef.of (T := ⟨S4096x4096, .i1⟩) main_v27) (TRef.of (T := ⟨S4096x4096, .f32⟩) main_call2_v1) (TRef.of (T := ⟨S4096x4096, .f32⟩) main_v22) (TRef.of (T := ⟨S4096x4096, .f32⟩) main_v30) select,
    nullary main_cst_7 (constant S_ .f32 0x7F800000#32),
    binary main_v30 main_cst_7 main_v31 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]
theorem mineOps_sub : (mineOps : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub ..⟩

/-- The margin, the hinge and the mean. -/
abbrev lossOps : List (HloOp τ sig (Elt F)) :=
  [ binary main_v29 main_v31 main_v32 (subf : (⟨S4096, .f32⟩ : BufTy).Contents (Elt F) → (⟨S4096, .f32⟩ : BufTy).Contents (Elt F) → (⟨S4096, .f32⟩ : BufTy).Contents (Elt F)),
    nullary main_cst_8 (constant S_ .f32 0x3E99999A#32),
    unary main_cst_8 main_v33 (broadcastInDim S4096 ![] bcast_S_S4096 : (⟨S_, .f32⟩ : BufTy).Contents (Elt F) → (⟨S4096, .f32⟩ : BufTy).Contents (Elt F)),
    binary main_v32 main_v33 main_v34 (addf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096, .f32⟩) main_call3_v0) (broadcastInDim S4096 ![] bcast_S_S4096),
    TRef.binary (TRef.of (T := ⟨S4096, .f32⟩) main_v34) (TRef.of (T := ⟨S4096, .f32⟩) main_call3_v0) (TRef.of (T := ⟨S4096, .f32⟩) main_v35) maximumf,
    nullary main_cst_9 (constant S_ .f32 0x00000000#32),
    binary main_v35 main_cst_9 main_v36 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_10 (constant S_ .f32 0x45800000#32),
    binary main_v36 main_cst_10 main_v37 (Host.divf : (⟨S_, .f32⟩ : BufTy).Contents (Elt F) → (⟨S_, .f32⟩ : BufTy).Contents (Elt F) → (⟨S_, .f32⟩ : BufTy).Contents (Elt F)) ]
theorem lossOps_sub : (lossOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

/-- The whole line: the four stretches in order. -/
abbrev ops : List (HloOp τ sig (Elt F)) := gatherOps ++ (distOps ++ (mineOps ++ lossOps))

set_option maxRecDepth 2048 in
/-- @main is that line: the called functions unfolded at their calls, the sequencing reassociated. -/
theorem main_eq (c : Dev nD) : main (F := F) c = seq ops := by
  simp only [main, fn_clip.body, fn_where.body, fn_where_0.body, fn_relu.body, ops, gatherOps, distOps, mineOps, lossOps,
    List.cons_append, List.nil_append, seq, bind_assoc, pure_bind]
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, List.forall_append]
  exact ⟨gatherOps_sub, distOps_sub, mineOps_sub, lossOps_sub⟩

variable (W : Valuation τ sig (Elt F))
variable (x0 : (⟨S4096x512, .f32⟩ : BufTy).Contents (Elt F)) (x1 : (⟨S4096, .i32⟩ : BufTy).Contents (Elt F))
  (x2 : (⟨S1000x512, .f32⟩ : BufTy).Contents (Elt F))

/-! ## What each stretch leaves -/

/-- After the gather the centre buffer holds the gathered centres. -/
theorem gather_v6 (h1 : W (Proc.devRef .tc main_arg1) = x1) (h2 : W (Proc.devRef .tc main_arg2) = x2) :
    after gatherOps W (Proc.devRef .tc main_v6) = val_main_v6 (F := F) x1 x2 := by
  subst h1 h2
  after_results_simp <;> rfl
theorem gather_arg0 : after gatherOps W (Proc.devRef .tc main_arg0) = W (Proc.devRef .tc main_arg0) := by after_results_simp <;> rfl
theorem gather_arg1 : after gatherOps W (Proc.devRef .tc main_arg1) = W (Proc.devRef .tc main_arg1) := by after_results_simp <;> rfl
theorem gather_arg2 : after gatherOps W (Proc.devRef .tc main_arg2) = W (Proc.devRef .tc main_arg2) := by after_results_simp <;> rfl

/-- After the second stretch the distance buffer holds the distance matrix. -/
theorem dist_v22 (h0 : W (Proc.devRef .tc main_arg0) = x0) (h6 : W (Proc.devRef .tc main_v6) = val_main_v6 (F := F) x1 x2) :
    after distOps W (Proc.devRef .tc main_v22) = val_main_v22 (F := F) x0 x1 x2 := by
  subst h0
  after_results_simp
  rw [h6]
  rfl
theorem dist_arg0 : after distOps W (Proc.devRef .tc main_arg0) = W (Proc.devRef .tc main_arg0) := by after_results_simp <;> rfl
theorem dist_arg1 : after distOps W (Proc.devRef .tc main_arg1) = W (Proc.devRef .tc main_arg1) := by after_results_simp <;> rfl
theorem dist_arg2 : after distOps W (Proc.devRef .tc main_arg2) = W (Proc.devRef .tc main_arg2) := by after_results_simp <;> rfl

/-- After the third stretch the two reduced buffers hold the row maxima and the row minima. -/
theorem mine_v29 (h1 : W (Proc.devRef .tc main_arg1) = x1) (h22 : W (Proc.devRef .tc main_v22) = val_main_v22 (F := F) x0 x1 x2) :
    after mineOps W (Proc.devRef .tc main_v29) = val_main_v29 (F := F) x0 x1 x2 := by
  subst h1
  after_results_simp
  rw [h22]
  rfl
theorem mine_v31 (h1 : W (Proc.devRef .tc main_arg1) = x1) (h22 : W (Proc.devRef .tc main_v22) = val_main_v22 (F := F) x0 x1 x2) :
    after mineOps W (Proc.devRef .tc main_v31) = val_main_v31 (F := F) x0 x1 x2 := by
  subst h1
  after_results_simp
  rw [h22]
  rfl
theorem mine_arg0 : after mineOps W (Proc.devRef .tc main_arg0) = W (Proc.devRef .tc main_arg0) := by after_results_simp <;> rfl
theorem mine_arg1 : after mineOps W (Proc.devRef .tc main_arg1) = W (Proc.devRef .tc main_arg1) := by after_results_simp <;> rfl
theorem mine_arg2 : after mineOps W (Proc.devRef .tc main_arg2) = W (Proc.devRef .tc main_arg2) := by after_results_simp <;> rfl

/-- After the last stretch the result buffer holds the mean hinge loss. -/
theorem loss_v37 (h29 : W (Proc.devRef .tc main_v29) = val_main_v29 (F := F) x0 x1 x2) (h31 : W (Proc.devRef .tc main_v31) = val_main_v31 (F := F) x0 x1 x2) :
    after lossOps W (Proc.devRef .tc main_v37) = val_main_v37 (F := F) x0 x1 x2 := by
  after_results_simp
  rw [h29, h31]
  rfl
theorem loss_arg0 : after lossOps W (Proc.devRef .tc main_arg0) = W (Proc.devRef .tc main_arg0) := by after_results_simp <;> rfl
theorem loss_arg1 : after lossOps W (Proc.devRef .tc main_arg1) = W (Proc.devRef .tc main_arg1) := by after_results_simp <;> rfl
theorem loss_arg2 : after lossOps W (Proc.devRef .tc main_arg2) = W (Proc.devRef .tc main_arg2) := by after_results_simp <;> rfl

/-! ## The whole line -/

theorem after_ops : after ops W = after lossOps (after mineOps (after distOps (after gatherOps W))) := by
  unfold ops
  rw [StableHlo.after_append, StableHlo.after_append, StableHlo.after_append]

/-- The reference's run: every weakly fair execution terminates with the result at the last stage of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = val_main_v37 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_)
    (run_seq scopedRefs_eq scopedSems_eq defs main (fun _ => ops) main_eq (fun _ => ops_sub) m ρ)
  refine ⟨(h c main_v37).trans ?_, (h c main_arg0).trans ?_, (h c main_arg1).trans ?_, (h c main_arg2).trans ?_⟩
  · rw [after_ops]
    refine loss_v37 _ _ _ _ (mine_v29 _ _ _ _ ?_ (dist_v22 _ _ _ _ ?_ (gather_v6 _ _ _ rfl rfl))) (mine_v31 _ _ _ _ ?_ (dist_v22 _ _ _ _ ?_ (gather_v6 _ _ _ rfl rfl)))
    · rw [dist_arg1, gather_arg1]
    · rw [gather_arg0]
    · rw [dist_arg1, gather_arg1]
    · rw [gather_arg0]
  · rw [after_ops, loss_arg0, mine_arg0, dist_arg0, gather_arg0]
  · rw [after_ops, loss_arg1, mine_arg1, dist_arg1, gather_arg1]
  · rw [after_ops, loss_arg2, mine_arg2, dist_arg2, gather_arg2]

end Cert.ReferenceIdeal.RefRun

end
-- ==== Proof.RefValue.lean ====
/-
  The reference's two mined vectors, read at a row.

  The reference forms the whole 4096 x 4096 matrix of clipped distances between every embedding row and every
  gathered centre row, masks it by class equality with -inf (for the positives) and +inf (for the negatives), and
  reduces each row by max, resp. min, over all 4096 columns: row i of the two results are `hardestPos` and
  `hardestNeg` of the embeddings, the gathered centres, their squared norms and the labels.
-/
import proofs.«123725_j72413148610843_1_alg».proof.Proof.RefStages
import proofs.«123725_j72413148610843_1_alg».proof.Proof.HardestSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Stages
open Cert.TripletMining

variable (x0 : (⟨S4096x512, .f32⟩ : BufTy).Contents (Elt Ideal)) (x1 : (⟨S4096, .i32⟩ : BufTy).Contents (Elt Ideal))
  (x2 : (⟨S1000x512, .f32⟩ : BufTy).Contents (Elt Ideal))

/-- The distance matrix's entry (i, j) is the clipped distance of row i and gathered centre row j. -/
theorem dist_at (i j : Fin 4096) :
    val_main_v22 (F := Ideal) x0 x1 x2 (ix2 i j)
      = dist x0 (val_main_v6 (F := Ideal) x1 x2) (val_main_v8 (F := Ideal) x0) (val_main_v10 (F := Ideal) x1 x2) i j := by
  -- the two squared-norm broadcasts read row i, resp. row j
  have e13 : idx_main_v11 (idx_main_v13 (ix2 i j)) = ix1 i :=
    funext fun a => Fin.ext (by match a with | ⟨0, _⟩ => rfl)
  have e14 : idx_main_v12 (idx_main_v14 (ix2 i j)) = ix1 j :=
    funext fun a => Fin.ext (by match a with | ⟨0, _⟩ => rfl)
  -- the contraction reads the embeddings at (i, k) and, through the transpose, the centres at (j, k)
  have el : ∀ k : Fin 512, lidx_main_v17 (ix2 i j) k = ix2 i k := fun k =>
    funext fun a => Fin.ext (by match a with | ⟨0, _⟩ => rfl | ⟨1, _⟩ => rfl)
  have er : ∀ k : Fin 512, idx_main_v16 (ridx_main_v17 (ix2 i j) k) = ix2 j k := fun k =>
    funext fun a => Fin.ext (by match a with | ⟨0, _⟩ => rfl | ⟨1, _⟩ => rfl)
  rw [val_main_v22_apply, val_main_v21_apply, val_main_call0_v1_apply, val_main_call0_v0_apply, val_main_cst_3_apply,
    val_main_v20_apply, val_main_v15_apply, val_main_v13_apply, val_main_v11_apply, val_main_v14_apply, val_main_v12_apply,
    val_main_v19_apply, val_main_v18_apply, val_main_cst_2_apply, val_main_v17_apply]
  simp only [val_main_v16_apply, e13, e14, el, er, Ideal.hostUnary_sqrt_def, Ideal.ofBits_def, Ideal.maximumf_def,
    Ideal.addf_def, Ideal.subf_def, Ideal.mulf_def]
  rfl

/-- The class-equality mask's entry (i, j). -/
theorem same_at (i j : Fin 4096) : val_main_v27 (F := Ideal) x1 (ix2 i j) = same x1 i j := by
  -- the two label broadcasts read label i, resp. label j
  have e25 : idx_main_v23 (idx_main_v25 (ix2 i j)) = ix1 i :=
    funext fun a => Fin.ext (by match a with | ⟨0, _⟩ => rfl)
  have e26 : idx_main_v24 (idx_main_v26 (ix2 i j)) = ix1 j :=
    funext fun a => Fin.ext (by match a with | ⟨0, _⟩ => rfl)
  rw [val_main_v27_apply, val_main_v25_apply, val_main_v23_apply, val_main_v26_apply, val_main_v24_apply, e25, e26]
  rfl

/-- Row i of the reference's maxima is row i's hardest positive. -/
theorem hardestPos_at (i : Fin 4096) :
    val_main_v29 (F := Ideal) x0 x1 x2 (ix1 i)
      = hardestPos x0 (val_main_v6 (F := Ideal) x1 x2) (val_main_v8 (F := Ideal) x0) (val_main_v10 (F := Ideal) x1 x2) x1 i := by
  have hR : S4096x4096.Reduces [1] S4096 := by decide
  -- row i with column k put back on the reduced axis is the entry (i, k)
  have hl : ∀ k : Fin 4096, hR.lift (ix1 i) k = ix2 i k := fun k =>
    funext fun a => Fin.ext (by match a with | ⟨0, _⟩ => rfl | ⟨1, _⟩ => rfl)
  unfold val_main_v29
  -- max is commutative and associative, so the row's reduction is the fold of max from -inf over its 4096 columns
  rw [Host.reduce_eq_fold_single (FloatOps.maximumf (F := Ideal) (φ := .f32)) _ _ reducesTo_S4096x4096_S4096_d1 hR h_S_ (ix1 i)]
  show (Finset.univ : Finset (Fin 4096)).fold max (Ideal.ofBits .f32 0xFF800000#32)
      (fun k => val_main_v28 (F := Ideal) x0 x1 x2 (hR.lift (ix1 i) k)) = _
  unfold hardestPos
  -- column by column: the masked entry (i, k) is the distance where the classes agree and -inf elsewhere
  refine Finset.fold_congr (fun (k : Fin 4096) _ => ?_)
  rw [hl k, val_main_v28_apply, same_at, dist_at, val_main_call1_v1_apply, val_main_call1_v0_apply, val_main_cst_4_apply]
  rfl

/-- Row i of the reference's minima is row i's hardest negative. -/
theorem hardestNeg_at (i : Fin 4096) :
    val_main_v31 (F := Ideal) x0 x1 x2 (ix1 i)
      = hardestNeg x0 (val_main_v6 (F := Ideal) x1 x2) (val_main_v8 (F := Ideal) x0) (val_main_v10 (F := Ideal) x1 x2) x1 i := by
  have hR : S4096x4096.Reduces [1] S4096 := by decide
  -- row i with column k put back on the reduced axis is the entry (i, k)
  have hl : ∀ k : Fin 4096, hR.lift (ix1 i) k = ix2 i k := fun k =>
    funext fun a => Fin.ext (by match a with | ⟨0, _⟩ => rfl | ⟨1, _⟩ => rfl)
  unfold val_main_v31
  -- min is commutative and associative, so the row's reduction is the fold of min from +inf over its 4096 columns
  rw [Host.reduce_eq_fold_single (FloatOps.minimumf (F := Ideal) (φ := .f32)) _ _ reducesTo_S4096x4096_S4096_d1 hR h_S_ (ix1 i)]
  show (Finset.univ : Finset (Fin 4096)).fold min (Ideal.ofBits .f32 0x7F800000#32)
      (fun k => val_main_v30 (F := Ideal) x0 x1 x2 (hR.lift (ix1 i) k)) = _
  unfold hardestNeg
  -- column by column: the masked entry (i, k) is +inf where the classes agree and the distance elsewhere
  refine Finset.fold_congr (fun (k : Fin 4096) _ => ?_)
  rw [hl k, val_main_v30_apply, same_at, dist_at, val_main_call2_v1_apply, val_main_call2_v0_apply, val_main_cst_6_apply]
  rfl

end Cert.ReferenceIdeal.RefValue

end
-- ==== Proof.LibColumnCast.lean ====
/-
  A general layout fact: dropping the trailing unit axis of an [a, 1] array.
-/
import Idealize.ShloMosaic.Lib.Pipeline.Value
import Idealize.ShloMosaic.Lib.ValueIdx

namespace Idealize.ShloMosaic.ValueIdx

open Idealize.ShloMosaic

/-- An `[a, 1]` array cast to `[a]` reads, at `i`, the operand at `(i, 0)`: the row-major position of `(i, 0)` is
    `i * 1 + 0 = i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Bridge.lean ====
/-
  The two programs compute one number.

  The kernel program ends at the loss of the two columns the mining region leaves, whose row i entries are row
  i's hardest positive and hardest negative of the batch; the reference ends at the same loss of its two reduced
  vectors, whose entries are the same two quantities. The gathered centres and the squared norms are computed by
  the same host operations in both programs.
-/
import proofs.«123725_j72413148610843_1_alg».proof.Proof.KernelRun
import proofs.«123725_j72413148610843_1_alg».proof.Proof.RefValue
import proofs.«123725_j72413148610843_1_alg».proof.Proof.LibColumnCast

noncomputable section

namespace Cert.Bridge

open Idealize.ShloMosaic Idealize.ShloMosaic.TcCoe Idealize.ShloMosaic.ValueIdx Idealize.SL.Sem
open Cert.KernelIdeal.Mined Cert.KernelIdeal.HostSide

variable (m : (ℓ : Loc Cert.KernelIdeal.nD Cert.KernelIdeal.τ Cert.KernelIdeal.sig) → Buf (Elt Ideal) ℓ) (c : Dev Cert.KernelIdeal.nD)

/-- The reference's row maxima are the kernel's maxima column with its unit axis dropped. -/
theorem maxima_eq :
    Cert.ReferenceIdeal.Stages.val_main_v29 (F := Ideal) (arg0 m c) (arg1 m c) (arg2 m c)
      = shapeCast Cert.KernelIdeal.S4096 (maxCol m c) Cert.KernelIdeal.Gen.shapeCasts_S4096x1_S4096 := by
  funext j
  obtain ⟨r, rfl⟩ : ∃ r : Fin 4096, j = ix1 r := ⟨j 0, eq_ix1 j⟩
  refine (Cert.ReferenceIdeal.RefValue.hardestPos_at (arg0 m c) (arg1 m c) (arg2 m c) r).trans ?_
  refine Eq.trans ?_ (shapeCast_a1_a_apply (maxCol m c) _ r).symm
  rfl

/-- The reference's row minima are the kernel's minima column with its unit axis dropped. -/
theorem minima_eq :
    Cert.ReferenceIdeal.Stages.val_main_v31 (F := Ideal) (arg0 m c) (arg1 m c) (arg2 m c)
      = shapeCast Cert.KernelIdeal.S4096 (minCol m c) Cert.KernelIdeal.Gen.shapeCasts_S4096x1_S4096 := by
  funext j
  obtain ⟨r, rfl⟩ : ∃ r : Fin 4096, j = ix1 r := ⟨j 0, eq_ix1 j⟩
  refine (Cert.ReferenceIdeal.RefValue.hardestNeg_at (arg0 m c) (arg1 m c) (arg2 m c) r).trans ?_
  refine Eq.trans ?_ (shapeCast_a1_a_apply (minCol m c) _ r).symm
  rfl

/-- The reference's last stage is the loss of its two reduced vectors. -/
theorem ref_loss (x0 : (⟨Cert.ReferenceIdeal.S4096x512, .f32⟩ : BufTy).Contents (Elt Ideal))
    (x1 : (⟨Cert.ReferenceIdeal.S4096, .i32⟩ : BufTy).Contents (Elt Ideal))
    (x2 : (⟨Cert.ReferenceIdeal.S1000x512, .f32⟩ : BufTy).Contents (Elt Ideal)) :
    Cert.ReferenceIdeal.Stages.val_main_v37 (F := Ideal) x0 x1 x2
      = lossVec (Cert.ReferenceIdeal.Stages.val_main_v29 (F := Ideal) x0 x1 x2) (Cert.ReferenceIdeal.Stages.val_main_v31 (F := Ideal) x0 x1 x2) :=
  rfl

/-- So the reference's result, at the kernel's arguments, is the kernel's result. -/
theorem result_eq :
    Cert.ReferenceIdeal.Stages.val_main_v37 (F := Ideal) (arg0 m c) (arg1 m c) (arg2 m c)
      = lossOf (maxCol m c) (minCol m c) := by
  rw [ref_loss, maxima_eq, minima_eq]
  rfl

end Cert.Bridge

end
-- ==== Proof.lean ====
/-
  Triplet-centre loss: a tiled mining kernel against its plain reference.

  Both programs gather the batch's centre rows, form the clipped distance between every embedding row and every
  gathered centre row from the expanded square, take each row's hardest positive (the largest distance within its
  class) and hardest negative (the smallest distance outside it), and average max (positive - negative + margin, 0)
  over the batch. The reference reduces whole rows of the 4096 x 4096 distance matrix; the kernel walks the matrix in
  512 x 512 tiles, keeping each row's running maximum and minimum in two columns that it resets at the first tile of
  a tile row and writes back after the last. Over the extended reals max and min are taken in any grouping, a change
  of float format is the identity, and the tile's matrix product is the same sum over the embedding axis as the
  reference's, so the two results are equal with no condition on the inputs beyond the programs running at all.

  The three frames: the two kernel programs' frames are the generated ones; the reference's is its run with the
  result dropped. The idealization rewrote nothing, so that claim is trivial.
-/
import proofs.«123725_j72413148610843_1_alg».proof.Defs
import proofs.«123725_j72413148610843_1_alg».proof.Proof.Gen.Kernel
import proofs.«123725_j72413148610843_1_alg».proof.Proof.Gen.Kernel.Skeleton
import proofs.«123725_j72413148610843_1_alg».proof.Proof.Gen.Kernel.Launch
import proofs.«123725_j72413148610843_1_alg».proof.Proof.Gen.Kernel.Points
import proofs.«123725_j72413148610843_1_alg».proof.Proof.Gen.Kernel.Frame
import proofs.«123725_j72413148610843_1_alg».proof.Proof.Gen.KernelIdeal
import proofs.«123725_j72413148610843_1_alg».proof.Proof.Gen.KernelIdeal.Skeleton
import proofs.«123725_j72413148610843_1_alg».proof.Proof.Gen.KernelIdeal.Launch
import proofs.«123725_j72413148610843_1_alg».proof.Proof.Gen.KernelIdeal.Points
import proofs.«123725_j72413148610843_1_alg».proof.Proof.Gen.KernelIdeal.Frame
import proofs.«123725_j72413148610843_1_alg».proof.Proof.Gen.ReferenceIdeal
import proofs.«123725_j72413148610843_1_alg».proof.Proof.Gen.Pre_finite_inputs
import proofs.«123725_j72413148610843_1_alg».proof.Proof.KernelRun
import proofs.«123725_j72413148610843_1_alg».proof.Proof.RefRun
import proofs.«123725_j72413148610843_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Run from memories that agree on the three arguments, both idealized programs end, at the same loss. -/
theorem algebraic : Cert.algebraic_KernelIdeal_ReferenceIdeal := by
  intro m ρ m' ρ' _ hagree
  refine ⟨fun c => Cert.KernelIdeal.Mined.lossOf (Cert.KernelIdeal.Mined.maxCol m c) (Cert.KernelIdeal.Mined.minCol m c),
    Cert.KernelIdeal.Mined.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
